-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S128x128 : Shape := ⟨2, ![128, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S64x4096x128 .f32) (main_arg1 : FVec F S128x128 .f32) (main_arg2 : FVec F S128x128 .f32) (main_arg3 : FVec F S128x128 .f32) (main_arg4 : FVec F S128x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S64x4096x128 : Shape := ⟨3, ![64, 4096, 128]⟩
abbrev S128x128 : Shape := ⟨2, ![128, 128]⟩
abbrev S1x4096x128 : Shape := ⟨3, ![1, 4096, 128]⟩
abbrev S4096x128 : Shape := ⟨2, ![4096, 128]⟩
abbrev S128 : Shape := ⟨1, ![128]⟩
abbrev S1x128 : Shape := ⟨2, ![1, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩

abbrev nBuf : Space → Nat
  | .hbm => 6
  | .vmem => 8
  | .smem => 0
  | _ => 0

abbrev bufTy : (tb : Table) → Fin (tcTables nBuf tb) → BufTy
  | .hbm, ⟨0, _⟩ => ⟨S64x4096x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S64x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x4096x128, .f32⟩
  | .local _ .vmem, ⟨7, _⟩ => ⟨S1x4096x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  reduces_S4096x128_S128 : S4096x128.Reduces [0] S128
  shapeCasts_S128_S1x128 : S128.ShapeCasts S1x128
  broadcasts_S1x128_S4096x128 : S1x128.Broadcasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  broadcasts_S1x1_S4096x128 : S1x1.Broadcasts S4096x128
  shapeCasts_S4096x128_S1x4096x128 : S4096x128.ShapeCasts S1x4096x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x4096x128.size a
  hwx0_0 : ∀ i : grid0.Coords, EltTy.bits .f32 = 32 ∨ (Rect.block (s := S64x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x128.size a ≤ S64x4096x128.size a
  hwx0_5 : ∀ i : grid0.Coords, EltTy.bits .f32 = 32 ∨ (Rect.block (s := S64x4096x128) S1x4096x128.size (cc0_transform_5 i) (hinb0_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S128x128 : Shape := ⟨2, ![128, 128]⟩
abbrev S_ : Shape := ⟨0, ![]⟩
abbrev S64x128 : Shape := ⟨2, ![64, 128]⟩
abbrev S64x1x128 : Shape := ⟨3, ![64, 1, 128]⟩
abbrev S64x524288 : Shape := ⟨2, ![64, 524288]⟩
abbrev S64 : Shape := ⟨1, ![64]⟩
abbrev S64x1 : Shape := ⟨2, ![64, 1]⟩

abbrev nBuf : Space → Nat
  | .hbm => 100
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S64x4096x128, .f32⟩
  | .hbm, ⟨6, _⟩ => ⟨S64x4096x128, .f32⟩
  | .hbm, ⟨7, _⟩ => ⟨S64x4096x128, .f32⟩
  | .hbm, ⟨8, _⟩ => ⟨S64x4096x128, .f32⟩
  | .hbm, ⟨9, _⟩ => ⟨S_, .f32⟩
  | .hbm, ⟨10, _⟩ => ⟨S64x128, .f32⟩
  | .hbm, ⟨11, _⟩ => ⟨S64x1x128, .f32⟩
  | .hbm, ⟨12, _⟩ => ⟨S_, .f32⟩
  | .hbm, ⟨13, _⟩ => ⟨S64x1x128, .f32⟩
  | .hbm, ⟨14, _⟩ => ⟨S64x1x128, .f32⟩
  | .hbm, ⟨15, _⟩ => ⟨S64x4096x128, .f32⟩
  | .hbm, ⟨16, _⟩ => ⟨S64x4096x128, .f32⟩
  | .hbm, ⟨17, _⟩ => ⟨S64x4096x128, .f32⟩
  | .hbm, ⟨18, _⟩ => ⟨S64x524288, .f32⟩
  | .hbm, ⟨19, _⟩ => ⟨S_, .f32⟩
  | .hbm, ⟨20, _⟩ => ⟨S64, .f32⟩
  | .hbm, ⟨21, _⟩ => ⟨S64x1, .f32⟩
  | .hbm, ⟨22, _⟩ => ⟨S_, .f32⟩
  | .hbm, ⟨23, _⟩ => ⟨S64x1, .f32⟩
  | .hbm, ⟨24, _⟩ => ⟨S64x1, .f32⟩
  | .hbm, ⟨25, _⟩ => ⟨S_, .i32⟩
  | .hbm, ⟨26, _⟩ => ⟨S_, .f32⟩
  | .hbm, ⟨27, _⟩ => ⟨S64, .f32⟩
  | .hbm, ⟨28, _⟩ => ⟨S64x1, .f32⟩
  | .hbm, ⟨29, _⟩ => ⟨S_, .f32⟩
  | .hbm, ⟨30, _⟩ => ⟨S64x1, .f32⟩
  | .hbm, ⟨31, _⟩ => ⟨S64x1, .f32⟩
  | .hbm, ⟨32, _⟩ => ⟨S64x524288, .f32⟩
  | .hbm, ⟨33, _⟩ => ⟨S64x524288, .f32⟩
  | .hbm, ⟨34, _⟩ => ⟨S64x524288, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S64, .f32⟩
  | .hbm, ⟨40, _⟩ => ⟨S64x1, .f32⟩
  | .hbm, ⟨41, _⟩ => ⟨S64x1, .f32⟩
  | .hbm, ⟨42, _⟩ => ⟨S64x1, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S64x1, .f32⟩
  | .hbm, ⟨48, _⟩ => ⟨S64x1, .f32⟩
  | .hbm, ⟨49, _⟩ => ⟨S64x524288, .f32⟩
  | .hbm, ⟨50, _⟩ => ⟨S64x524288, .f32⟩
  | .hbm, ⟨51, _⟩ => ⟨S_, .f32⟩
  | .hbm, ⟨52, _⟩ => ⟨S64x1, .f32⟩
  | .hbm, ⟨53, _⟩ => ⟨S64x1, .f32⟩
  | .hbm, ⟨54, _⟩ => ⟨S64x1, .f32⟩
  | .hbm, ⟨55, _⟩ => ⟨S64x524288, .f32⟩
  | .hbm, ⟨56, _⟩ => ⟨S64x524288, .f32⟩
  | .hbm, ⟨57, _⟩ => ⟨S64x4096x128, .f32⟩
  | .hbm, ⟨58, _⟩ => ⟨S64x4096x128, .f32⟩
  | .hbm, ⟨59, _⟩ => ⟨S64x524288, .f32⟩
  | .hbm, ⟨60, _⟩ => ⟨S_, .f32⟩
  | .hbm, ⟨61, _⟩ => ⟨S64, .f32⟩
  | .hbm, ⟨62, _⟩ => ⟨S64x1, .f32⟩
  | .hbm, ⟨63, _⟩ => ⟨S_, .f32⟩
  | .hbm, ⟨64, _⟩ => ⟨S64x1, .f32⟩
  | .hbm, ⟨65, _⟩ => ⟨S64x1, .f32⟩
  | .hbm, ⟨66, _⟩ => ⟨S_, .i32⟩
  | .hbm, ⟨67, _⟩ => ⟨S_, .f32⟩
  | .hbm, ⟨68, _⟩ => ⟨S64, .f32⟩
  | .hbm, ⟨69, _⟩ => ⟨S64x1, .f32⟩
  | .hbm, ⟨70, _⟩ => ⟨S_, .f32⟩
  | .hbm, ⟨71, _⟩ => ⟨S64x1, .f32⟩
  | .hbm, ⟨72, _⟩ => ⟨S64x1, .f32⟩
  | .hbm, ⟨73, _⟩ => ⟨S64x524288, .f32⟩
  | .hbm, ⟨74, _⟩ => ⟨S64x524288, .f32⟩
  | .hbm, ⟨75, _⟩ => ⟨S64x524288, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S64, .f32⟩
  | .hbm, ⟨81, _⟩ => ⟨S64x1, .f32⟩
  | .hbm, ⟨82, _⟩ => ⟨S64x1, .f32⟩
  | .hbm, ⟨83, _⟩ => ⟨S64x1, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S64x1, .f32⟩
  | .hbm, ⟨89, _⟩ => ⟨S64x1, .f32⟩
  | .hbm, ⟨90, _⟩ => ⟨S64x524288, .f32⟩
  | .hbm, ⟨91, _⟩ => ⟨S64x524288, .f32⟩
  | .hbm, ⟨92, _⟩ => ⟨S_, .f32⟩
  | .hbm, ⟨93, _⟩ => ⟨S64x1, .f32⟩
  | .hbm, ⟨94, _⟩ => ⟨S64x1, .f32⟩
  | .hbm, ⟨95, _⟩ => ⟨S64x1, .f32⟩
  | .hbm, ⟨96, _⟩ => ⟨S64x524288, .f32⟩
  | .hbm, ⟨97, _⟩ => ⟨S64x524288, .f32⟩
  | .hbm, ⟨98, _⟩ => ⟨S64x4096x128, .f32⟩
  | .hbm, ⟨99, _⟩ => ⟨S64x4096x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_c_6 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_cst_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_cst_1 : Ref sig .tc := ⟨.hbm, 77, rfl⟩
abbrev main_call1_v8 : Ref sig .tc := ⟨.hbm, 78, rfl⟩
abbrev main_call1_cst_2 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_cst_3 : Ref sig .tc := ⟨.hbm, 84, rfl⟩
abbrev main_call1_v13 : Ref sig .tc := ⟨.hbm, 85, rfl⟩
abbrev main_call1_cst_4 : Ref sig .tc := ⟨.hbm, 86, rfl⟩
abbrev main_call1_call0_v0 : Ref sig .tc := ⟨.hbm, 87, rfl⟩
abbrev main_call1_call0_v1 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_cst_7 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩

abbrev nD : Nat := 1
abbrev τ : Topo := Topo.v7x

variable {F : FTy → Type} [FloatOps F]

class Facts₀ : Prop where
  reducesTo_S64x4096x128_S64x128_d1 : S64x4096x128.ReducesTo [1] S64x128
  h_S_ : 0 < S_.numel
  bcast_S64x128_S64x1x128_0_2 : S64x128.BroadcastsInDim S64x1x128 (![0, 2] : Fin 2 → Fin S64x1x128.rank)
  bcast_S_S64x1x128 : S_.BroadcastsInDim S64x1x128 (![] : Fin 0 → Fin S64x1x128.rank)
  bcast_S64x1x128_S64x4096x128_0_1_2 : S64x1x128.BroadcastsInDim S64x4096x128 (![0, 1, 2] : Fin 3 → Fin S64x4096x128.rank)
  shapeCasts_S64x4096x128_S64x524288 : S64x4096x128.ShapeCasts S64x524288
  reducesTo_S64x524288_S64_d1 : S64x524288.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x524288_0_1 : S64x1.BroadcastsInDim S64x524288 (![0, 1] : Fin 2 → Fin S64x524288.rank)
  shapeCasts_S64x524288_S64x4096x128 : S64x524288.ShapeCasts S64x4096x128
  dot_S64x4096x128_S128x128_S64x4096x128_2_1_01_0_n_n_wf : DotDims.WF S64x4096x128 S128x128 S64x4096x128 [2] [1] [0, 1] [0] [] []

variable [Facts₀]

def dot_S64x4096x128_S128x128_S64x4096x128_2_1_01_0_n_n : DotDims S64x4096x128 S128x128 S64x4096x128 where
  lhsContracting := [2]
  rhsContracting := [1]
  lhsNonContracting := [0, 1]
  rhsNonContracting := [0]
  lhsBatch := []
  rhsBatch := []
  wf := dot_S64x4096x128_S128x128_S64x4096x128_2_1_01_0_n_n_wf

class Facts : Prop extends Facts₀ where

variable [Facts]
-- ==== Proof.Spec.lean ====
/-
  What both programs compute on one batch slice, over plain matrices of extended reals.

  A slice `x : [4096, 128]` is projected three times, `q = x wqᵀ`, `k = x wkᵀ`, `v = x wvᵀ`; the columns of `k ∘ v` are
  averaged over the 4096 rows and `w = q ∘ s + v` with that column average `s` broadcast down the rows; `w` is normalised
  over ALL its 4096·128 entries (subtract the mean, multiply by the reciprocal square root of variance plus ε), projected
  once more by `wl`, normalised again and passed through tanh.

  The two programs differ in how they sum and in how they take the variance. `total` sums row by row (a lane sum, then a
  sum of the row sums) and `var` is the mean of squares minus the squared mean; `totalF` sums the 524288 entries of the
  flattened slice in one go and `varF` is the mean of the squared deviations from the mean. On extended reals the two
  totals always agree (addition commutes and associates); the two variances agree where every entry is a real number.
-/
import Idealize.ShloMosaic.PureOps.Ideal
import Idealize.ShloMosaic.PureOps.Ideal.Laws

noncomputable section

open scoped BigOperators

namespace Cert.Spec

open Idealize.ShloMosaic

/-- A matrix of extended reals. -/
abbrev Mat (a b : Nat) : Type := Fin a → Fin b → EReal

/-- The three float literals both programs share: the row count 4096, the entry count 524288 = 4096·128, and ε. -/
def c4096 : EReal := Ideal.ofBits .f32 0x45800000#32
def cCount : EReal := Ideal.ofBits .f32 0x49000000#32
def eps : EReal := Ideal.ofBits .f32 0x3727C5AC#32

theorem c4096_eq : c4096 = ((4096 : ℝ) : EReal) := by
  simp [c4096, Ideal.ofBits, Ideal.ieee, -EReal.coe_mul]; norm_num
theorem cCount_eq : cCount = ((524288 : ℝ) : EReal) := by
  simp [cCount, Ideal.ofBits, Ideal.ieee, -EReal.coe_mul]; norm_num
/-- ε is a positive real number (its exact value, 10995116 · 2⁻⁴⁰, plays no part). -/
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]
theorem cCount_pos : (0 : EReal) < cCount := by
  rw [cCount_eq]; exact_mod_cast (by norm_num : (0 : ℝ) < 524288)

/-- `x wᵀ`: entry (n, h) is the sum over i of x[n, i] · w[h, i]. -/
def proj (x : Mat 4096 128) (w : Mat 128 128) : Mat 4096 128 := fun n h => ∑ i : Fin 128, x n i * w h i

/-- The average over the rows of column h of `k ∘ v`. -/
def colMean (k v : Mat 4096 128) (h : Fin 128) : EReal := Ideal.div (∑ n : Fin 4096, k n h * v n h) c4096

/-- `q ∘ s + v`, the column average `s` broadcast down the rows. -/
def mix (q k v : Mat 4096 128) : Mat 4096 128 := fun n h => q n h * colMean k v h + v n h

/-! ### Normalising over all entries, the sums taken row by row -/

def total (z : Mat 4096 128) : EReal := ∑ n : Fin 4096, ∑ h : Fin 128, z n h
def mean (z : Mat 4096 128) : EReal := Ideal.div (total z) cCount
/-- The mean of the squares minus the squared mean. -/
def var (z : Mat 4096 128) : EReal := Ideal.div (total fun n h => z n h * z n h) cCount - mean z * mean z
def norm (z : Mat 4096 128) : Mat 4096 128 := fun n h => (z n h - mean z) * Ideal.rsqrt (var z + eps)

/-- The slice's result, sums row by row. -/
def out (x : Mat 4096 128) (wq wk wv wl : Mat 128 128) : Mat 4096 128 := fun n o =>
  Ideal.tanh (norm (proj (norm (mix (proj x wq) (proj x wk) (proj x wv))) wl) n o)

/-! ### Normalising over all entries, the slice flattened to 524288 entries first -/

/-- Entry j of the flattened slice is entry (j / 128, j % 128). -/
def flat (z : Mat 4096 128) (j : Fin 524288) : EReal :=
  z ⟨j.val / 128, by have := j.isLt; omega⟩ ⟨j.val % 128, Nat.mod_lt _ (by norm_num)⟩
def totalF (z : Mat 4096 128) : EReal := ∑ j : Fin 524288, flat z j
def meanF (z : Mat 4096 128) : EReal := Ideal.div (totalF z) cCount
/-- The mean of the squared deviations from the mean. -/
def varF (z : Mat 4096 128) : EReal := Ideal.div (totalF fun n h => (z n h - meanF z) * (z n h - meanF z)) cCount
def normF (z : Mat 4096 128) : Mat 4096 128 := fun n h => (z n h - meanF z) * Ideal.rsqrt (varF z + eps)

/-- The slice's result, sums over the flattened slice. -/
def outF (x : Mat 4096 128) (wq wk wv wl : Mat 128 128) : Mat 4096 128 := fun n o =>
  Ideal.tanh (normF (proj (normF (mix (proj x wq) (proj x wk) (proj x wv))) wl) n o)

end Cert.Spec

end
-- ==== Proof.KernelPay.lean ====
/-
  The kernel body's stored block, entry by entry. One grid point loads a [1, 4096, 128] slice and the four weight
  matrices and stores one [1, 4096, 128] block; entry (0, n, o) of that block is the slice's result `Spec.out` at (n, o),
  the sums taken row by row as the body takes them.
-/
import proofs.«100207_j82643760710412_1_alg».proof.Proof.Gen.KernelIdeal.Frame
import proofs.«100207_j82643760710412_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- A loaded [1, 4096, 128] slice as a matrix. -/
def sliceMat (x0 : Vec Ideal S1x4096x128 .f32) : Cert.Spec.Mat 4096 128 := fun n i => x0 (ix3 (0 : Fin 1) n i)
/-- A loaded [128, 128] weight block as a matrix. -/
def wMat (w : Vec Ideal S128x128 .f32) : Cert.Spec.Mat 128 128 := fun h i => w (ix2 h i)

/-! ### The matrix product read at an entry -/

theorem lhs_axis0 (j : S4096x128.Idx) (k : dot_S4096x128_S128x128_S4096x128_1_0_0_1_n_n.contr.Idx) :
    (dot_S4096x128_S128x128_S4096x128_1_0_0_1_n_n.lhsIdx j k 0).val = (j 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

theorem lhs_axis1 (j : S4096x128.Idx) (k : dot_S4096x128_S128x128_S4096x128_1_0_0_1_n_n.contr.Idx) :
    (dot_S4096x128_S128x128_S4096x128_1_0_0_1_n_n.lhsIdx j k 1).val = (k ⟨0, by decide⟩).val :=
  DotDims.lhsIdx_val_of_single _ rfl j k

theorem rhs_axis0 (j : S4096x128.Idx) (k : dot_S4096x128_S128x128_S4096x128_1_0_0_1_n_n.contr.Idx) :
    (dot_S4096x128_S128x128_S4096x128_1_0_0_1_n_n.rhsIdx j k 0).val = (k ⟨0, by decide⟩).val :=
  DotDims.rhsIdx_val_of_single _ rfl j k

theorem rhs_axis1 (j : S4096x128.Idx) (k : dot_S4096x128_S128x128_S4096x128_1_0_0_1_n_n.contr.Idx) :
    (dot_S4096x128_S128x128_S4096x128_1_0_0_1_n_n.rhsIdx j k 1).val = (j 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- A product into the zero accumulator, read at (n, h): the sum over the contracted coordinate. -/
theorem matmul_zero_apply {φ₁ φ₂ : FTy} (a : FVec Ideal S4096x128 φ₁) (b : FVec Ideal S128x128 φ₂) (n : Fin 4096) (h : Fin 128) :
    matmul dot_S4096x128_S128x128_S4096x128_1_0_0_1_n_n none a b (constant (F := Ideal) S4096x128 .f32 0x00000000#32) (ix2 n h)
      = ∑ i : Fin 128, a (ix2 n i) * b (ix2 i h) := by
  refine (Ideal.matmul_constant_zero_apply _ none a b (ix2 n h)).trans ?_
  rw [← Equiv.sum_comp (contrEquiv1 dot_S4096x128_S128x128_S4096x128_1_0_0_1_n_n 128 rfl rfl).symm]
  refine Finset.sum_congr rfl fun i _ => ?_
  have hk := contrEquiv1_symm_val dot_S4096x128_S128x128_S4096x128_1_0_0_1_n_n 128 rfl rfl i
  have hl : dot_S4096x128_S128x128_S4096x128_1_0_0_1_n_n.lhsIdx (ix2 n h)
      ((contrEquiv1 dot_S4096x128_S128x128_S4096x128_1_0_0_1_n_n 128 rfl rfl).symm i) = ix2 n i := by
    funext ax; apply Fin.ext
    match ax with
    | ⟨0, _⟩ => exact lhs_axis0 _ _
    | ⟨1, _⟩ => exact (lhs_axis1 _ _).trans hk
  have hr : dot_S4096x128_S128x128_S4096x128_1_0_0_1_n_n.rhsIdx (ix2 n h)
      ((contrEquiv1 dot_S4096x128_S128x128_S4096x128_1_0_0_1_n_n 128 rfl rfl).symm i) = ix2 i h := by
    funext ax; apply Fin.ext
    match ax with
    | ⟨0, _⟩ => exact (rhs_axis0 _ _).trans hk
    | ⟨1, _⟩ => exact rhs_axis1 _ _
  rw [hl, hr]

/-! ### The keepdims layout forms -/

/-- An `[a]` vector cast to the column `[a, 1]` reads, at `(i, u)`, the operand at `i`: both sit at row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array broadcast to `[a, b]` reads its one entry everywhere: both operand axes are unit axes. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ### The three one-axis sums -/

/-- The lane sum of row n. -/
theorem laneSum_apply (v : FVec Ideal S4096x128 .f32) (n : Fin 4096) :
    multiReduction (F := Ideal) .add [1] S4096 v 0x00000000#32 reduces_S4096x128_S4096 (.inl rfl) rfl (ix1 n)
      = ∑ h : Fin 128, v (ix2 n h) := by
  refine (Ideal.multiReduction_add_single v _ reduces_S4096x128_S4096 (.inl rfl) rfl (ix1 n)).trans ?_
  refine Finset.sum_congr rfl fun h _ => congrArg v ?_
  funext ax; apply Fin.ext
  match ax with
  | ⟨0, _⟩ => rfl
  | ⟨1, _⟩ => rfl

/-- The sum down column h. -/
theorem colSum_apply (v : FVec Ideal S4096x128 .f32) (h : Fin 128) :
    multiReduction (F := Ideal) .add [0] S128 v 0x00000000#32 reduces_S4096x128_S128 (.inl rfl) rfl (ix1 h)
      = ∑ n : Fin 4096, v (ix2 n h) := by
  refine (Ideal.multiReduction_add_single v _ reduces_S4096x128_S128 (.inl rfl) rfl (ix1 h)).trans ?_
  refine Finset.sum_congr rfl fun n _ => congrArg v ?_
  funext ax; apply Fin.ext
  match ax with
  | ⟨0, _⟩ => rfl
  | ⟨1, _⟩ => rfl

/-- The sum of a column vector's 4096 entries. -/
theorem rowsSum_apply (v : FVec Ideal S4096x1 .f32) (u : Fin 1) :
    multiReduction (F := Ideal) .add [0] S1 v 0x00000000#32 reduces_S4096x1_S1 (.inl rfl) rfl (ix1 u)
      = ∑ n : Fin 4096, v (ix2 n u) := by
  refine (Ideal.multiReduction_add_single v _ reduces_S4096x1_S1 (.inl rfl) rfl (ix1 u)).trans ?_
  refine Finset.sum_congr rfl fun n _ => congrArg v ?_
  funext ax; apply Fin.ext
  match ax with
  | ⟨0, _⟩ => rfl
  | ⟨1, _⟩ => rfl

/-! ### The total of a [4096, 128] vector as the body takes it -/

/-- Lane sums, the column of them summed, kept as a [1, 1] vector. -/
def totV (z : FVec Ideal S4096x128 .f32) : FVec Ideal S1x1 .f32 :=
  shapeCast S1x1 (multiReduction (F := Ideal) .add [0] S1
    (shapeCast S4096x1 (multiReduction (F := Ideal) .add [1] S4096 z 0x00000000#32 reduces_S4096x128_S4096 (.inl rfl) rfl) shapeCasts_S4096_S4096x1)
    0x00000000#32 reduces_S4096x1_S1 (.inl rfl) rfl) shapeCasts_S1_S1x1

theorem totV_apply (z : FVec Ideal S4096x128 .f32) (Z : Cert.Spec.Mat 4096 128) (hz : ∀ n h, z (ix2 n h) = Z n h) :
    totV z (ix2 (0 : Fin 1) (0 : Fin 1)) = Cert.Spec.total Z := by
  unfold totV Cert.Spec.total
  refine (shapeCast_a_1a_apply _ shapeCasts_S1_S1x1 0 0).trans ?_
  refine (rowsSum_apply _ 0).trans ?_
  refine Finset.sum_congr rfl fun n _ => ?_
  refine (shapeCast_a_a1_apply _ shapeCasts_S4096_S4096x1 n 0).trans ?_
  refine (laneSum_apply z n).trans ?_
  exact Finset.sum_congr rfl fun h _ => hz n h

/-! ### A projection by a transposed weight block -/

/-- A product of `a` by the transpose of `w` into zero, read at (n, h), is the entry of `A Wᵀ` when `a`, `w` hold
    the matrices `A`, `W`: the transpose swaps the weight's coordinates back. -/
theorem projT_apply (a : FVec Ideal S4096x128 .bf16) (w : FVec Ideal S128x128 .bf16) (A : Cert.Spec.Mat 4096 128)
    (W : Cert.Spec.Mat 128 128) (ha : ∀ n i, a (ix2 n i) = A n i) (hw : ∀ h i, w (ix2 h i) = W h i) (n : Fin 4096) (h : Fin 128) :
    matmul dot_S4096x128_S128x128_S4096x128_1_0_0_1_n_n none a
        (transpose S128x128 [1, 0] w transposes_S128x128_p1_0_S128x128)
        (constant (F := Ideal) S4096x128 .f32 0x00000000#32) (ix2 n h)
      = Cert.Spec.proj A W n h := by
  unfold Cert.Spec.proj
  refine (matmul_zero_apply _ _ n h).trans ?_
  refine Finset.sum_congr rfl fun i _ => ?_
  rw [transpose_ix2_apply, ha, hw]

/-- `x wᵀ` as the body computes it: the slice without its unit axis, the weight block transposed, a product into zero. -/
def projV (x0 : Vec Ideal S1x4096x128 .f32) (w : Vec Ideal S128x128 .f32) : FVec Ideal S4096x128 .f32 :=
  matmul dot_S4096x128_S128x128_S4096x128_1_0_0_1_n_n none
    (truncf .bf16 (shapeCast S4096x128 x0 shapeCasts_S1x4096x128_S4096x128) bitsLt_bf16_f32)
    (transpose S128x128 [1, 0] (truncf .bf16 w bitsLt_bf16_f32) transposes_S128x128_p1_0_S128x128)
    (constant (F := Ideal) S4096x128 .f32 0x00000000#32)

theorem projV_apply (x0 : Vec Ideal S1x4096x128 .f32) (w : Vec Ideal S128x128 .f32) (n : Fin 4096) (h : Fin 128) :
    projV x0 w (ix2 n h) = Cert.Spec.proj (sliceMat x0) (wMat w) n h :=
  projT_apply _ _ (sliceMat x0) (wMat w) (fun n i => shapeCast_1ab_ab_apply x0 shapeCasts_S1x4096x128_S4096x128 n i)
    (fun _ _ => rfl) n h

/-! ### The mix `q ∘ s + v` -/

theorem pay3_eq (x0 : Vec Ideal S1x4096x128 .f32) (x1 x2 x3 : Vec Ideal S128x128 .f32) :
    k0_pay3 x0 x1 x2 x3 = addf (mulf (projV x0 x1) (broadcastTo S4096x128
      (divf (shapeCast S1x128 (multiReduction (F := Ideal) .add [0] S128 (mulf (projV x0 x2) (projV x0 x3)) 0x00000000#32
          reduces_S4096x128_S128 (.inl rfl) rfl) shapeCasts_S128_S1x128)
        (broadcast S1x128 (Scalar.ofBits (F := Ideal) .f32 0x45800000#32))) broadcasts_S1x128_S4096x128)) (projV x0 x3) := rfl

theorem pay3_apply (x0 : Vec Ideal S1x4096x128 .f32) (x1 x2 x3 : Vec Ideal S128x128 .f32) (n : Fin 4096) (h : Fin 128) :
    k0_pay3 x0 x1 x2 x3 (ix2 n h)
      = Cert.Spec.mix (Cert.Spec.proj (sliceMat x0) (wMat x1)) (Cert.Spec.proj (sliceMat x0) (wMat x2))
          (Cert.Spec.proj (sliceMat x0) (wMat x3)) n h := by
  rw [pay3_eq]
  unfold Cert.Spec.mix Cert.Spec.colMean
  rw [addf_apply, mulf_apply, broadcastTo_1b_ab_apply, divf_apply, shapeCast_a_1a_apply, colSum_apply, projV_apply, projV_apply]
  refine congrArg (fun t => Cert.Spec.proj (sliceMat x0) (wMat x1) n h * Ideal.div t _ + _) ?_
  refine Finset.sum_congr rfl fun m _ => ?_
  rw [mulf_apply, projV_apply, projV_apply]

/-- The mix as a matrix. -/
abbrev mixMat (x0 : Vec Ideal S1x4096x128 .f32) (x1 x2 x3 : Vec Ideal S128x128 .f32) : Cert.Spec.Mat 4096 128 :=
  Cert.Spec.mix (Cert.Spec.proj (sliceMat x0) (wMat x1)) (Cert.Spec.proj (sliceMat x0) (wMat x2))
    (Cert.Spec.proj (sliceMat x0) (wMat x3))

/-! ### Mean, total of squares, entry count -/

theorem pay4_apply (x0 : Vec Ideal S1x4096x128 .f32) (x1 x2 x3 : Vec Ideal S128x128 .f32) :
    k0_pay4 x0 x1 x2 x3 (ix2 (0 : Fin 1) (0 : Fin 1)) = Cert.Spec.mean (mixMat x0 x1 x2 x3) := by
  have e : k0_pay4 x0 x1 x2 x3
      = divf (totV (k0_pay3 x0 x1 x2 x3)) (broadcast S1x1 (Scalar.ofBits (F := Ideal) .f32 0x49000000#32)) := rfl
  rw [e, divf_apply, totV_apply _ (mixMat x0 x1 x2 x3) (pay3_apply x0 x1 x2 x3)]
  rfl

theorem pay5_apply (x0 : Vec Ideal S1x4096x128 .f32) (x1 x2 x3 : Vec Ideal S128x128 .f32) :
    k0_pay5 x0 x1 x2 x3 (ix2 (0 : Fin 1) (0 : Fin 1))
      = Cert.Spec.total (fun n h => mixMat x0 x1 x2 x3 n h * mixMat x0 x1 x2 x3 n h) := by
  have e : k0_pay5 x0 x1 x2 x3 = totV (mulf (k0_pay3 x0 x1 x2 x3) (k0_pay3 x0 x1 x2 x3)) := rfl
  rw [e]
  refine totV_apply _ _ fun n h => ?_
  rw [mulf_apply, pay3_apply]

theorem pay6_apply : (k0_pay6 (F := Ideal)) (ix2 (0 : Fin 1) (0 : Fin 1)) = Cert.Spec.cCount := rfl

/-! ### Normalising over all entries -/

/-- Subtract the mean, multiply by the reciprocal square root of (mean of squares − mean² + ε), from the mean `mu`,
    the total of squares `sq` and the entry count `cnt` as [1, 1] vectors. -/
def normV (z : FVec Ideal S4096x128 .f32) (mu sq cnt : FVec Ideal S1x1 .f32) : FVec Ideal S4096x128 .f32 :=
  mulf (subf z (broadcastTo S4096x128 mu broadcasts_S1x1_S4096x128))
    (broadcastTo S4096x128 (rsqrt (addf (subf (divf sq cnt) (mulf mu mu))
      (broadcast S1x1 (Scalar.ofBits (F := Ideal) .f32 0x3727C5AC#32)))) broadcasts_S1x1_S4096x128)

theorem normV_apply (z : FVec Ideal S4096x128 .f32) (mu sq cnt : FVec Ideal S1x1 .f32) (Z : Cert.Spec.Mat 4096 128)
    (hz : ∀ n h, z (ix2 n h) = Z n h) (hmu : mu (ix2 (0 : Fin 1) (0 : Fin 1)) = Cert.Spec.mean Z)
    (hsq : sq (ix2 (0 : Fin 1) (0 : Fin 1)) = Cert.Spec.total (fun n h => Z n h * Z n h))
    (hcnt : cnt (ix2 (0 : Fin 1) (0 : Fin 1)) = Cert.Spec.cCount) (n : Fin 4096) (h : Fin 128) :
    normV z mu sq cnt (ix2 n h) = Cert.Spec.norm Z n h := by
  unfold normV Cert.Spec.norm Cert.Spec.var
  rw [mulf_apply, subf_apply, broadcastTo_11_ab_apply, broadcastTo_11_ab_apply]
  show (z (ix2 n h) - mu (ix2 (0 : Fin 1) (0 : Fin 1)))
      * Ideal.rsqrt (Ideal.div (sq (ix2 (0 : Fin 1) (0 : Fin 1))) (cnt (ix2 (0 : Fin 1) (0 : Fin 1)))
          - mu (ix2 (0 : Fin 1) (0 : Fin 1)) * mu (ix2 (0 : Fin 1) (0 : Fin 1)) + Cert.Spec.eps) = _
  rw [hz, hmu, hsq, hcnt]

/-- Normalising a vector by its own mean and its own total of squares. -/
def selfNormV (v : FVec Ideal S4096x128 .f32) : FVec Ideal S4096x128 .f32 :=
  normV v (divf (totV v) (broadcast S1x1 (Scalar.ofBits (F := Ideal) .f32 0x49000000#32))) (totV (mulf v v))
    (broadcast S1x1 (Scalar.ofBits (F := Ideal) .f32 0x49000000#32))

theorem selfNormV_apply (v : FVec Ideal S4096x128 .f32) (Z : Cert.Spec.Mat 4096 128) (hv : ∀ n h, v (ix2 n h) = Z n h)
    (n : Fin 4096) (h : Fin 128) : selfNormV v (ix2 n h) = Cert.Spec.norm Z n h := by
  unfold selfNormV
  refine normV_apply v _ _ _ Z hv ?_ ?_ rfl n h
  · rw [divf_apply, totV_apply v Z hv]; rfl
  · exact totV_apply _ _ fun n h => by rw [mulf_apply, hv]

/-! ### The stored block -/

/-- The body's last payload: normalise the mix, project by `wlᵀ`, normalise the projection by its own mean and total
    of squares, tanh, and the unit axis put back. -/
theorem pay1_eq (v10 : FVec Ideal S128x128 .bf16) (v24 : FVec Ideal S4096x128 .f32) (v30 v35 v36 : FVec Ideal S1x1 .f32) :
    k0_pay1 v10 v24 v30 v35 v36
      = shapeCast S1x4096x128 (tanh (selfNormV
          (matmul dot_S4096x128_S128x128_S4096x128_1_0_0_1_n_n none
            (truncf .bf16 (normV v24 v30 v35 v36) bitsLt_bf16_f32)
            (transpose S128x128 [1, 0] v10 transposes_S128x128_p1_0_S128x128)
            (constant (F := Ideal) S4096x128 .f32 0x00000000#32)))) shapeCasts_S4096x128_S1x4096x128 := rfl

/-- Entry (0, n, o) of what the body leaves in the output window's buffer. -/
theorem out_apply (x0 : Vec Ideal S1x4096x128 .f32) (x1 x2 x3 x4 : Vec Ideal S128x128 .f32) (n : Fin 4096) (o : Fin 128) :
    out0_5 (F := Ideal) x0 x1 x2 x3 x4 (ix3 (0 : Fin 1) n o)
      = Cert.Spec.out (sliceMat x0) (wMat x1) (wMat x2) (wMat x3) (wMat x4) n o := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_5
  rw [View.canon_unit_zero hz3]
  simp only [View.ld_unit_zero (S := S1x4096x128) hz3, View.ld_unit_zero (S := S128x128) hz2]
  rw [pay1_eq, shapeCast_ab_1ab_apply]
  unfold Cert.Spec.out
  refine congrArg Ideal.tanh ?_
  refine selfNormV_apply _ _ (fun n h => ?_) n o
  refine projT_apply _ _ _ (wMat x4) (fun n i => ?_) (fun _ _ => rfl) n h
  exact normV_apply _ _ _ _ (mixMat x0 x1 x2 x3) (pay3_apply x0 x1 x2 x3) (pay4_apply x0 x1 x2 x3)
    (pay5_apply x0 x1 x2 x3) pay6_apply n i

end Cert.KernelIdeal.Pay

end
-- ==== Proof.KernelValue.lean ====
/-
  The kernel's result array after the run. Grid point t stores one [1, 4096, 128] block, and that block is block t of
  the result: the 64 blocks tile the [64, 4096, 128] array along its first axis. Each point's input slice is batch
  slice t of the input array and its four weight blocks are the whole weight arrays, so entry (b, n, o) of the result
  is batch slice b's result `Spec.out` at (n, o).
-/
import proofs.«100207_j82643760710412_1_alg».proof.Proof.Gen.KernelIdeal.Frame
import proofs.«100207_j82643760710412_1_alg».proof.Proof.Gen.KernelIdeal.Value
import proofs.«100207_j82643760710412_1_alg».proof.Proof.KernelPay
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.KernelIdeal.Pay

variable (m : (ℓ : Loc nD τ sig) → Buf (Elt Ideal) ℓ) (ρ : Dev nD → PrngReg)

/-- Batch slice b of a [64, 4096, 128] array as a matrix. -/
def bSlice (X : S64x4096x128.Idx → EReal) (b : Fin 64) : Cert.Spec.Mat 4096 128 := fun n i => X (ix3 b n i)
/-- A [128, 128] array as a matrix. -/
def wM (w : S128x128.Idx → EReal) : Cert.Spec.Mat 128 128 := fun h i => w (ix2 h i)

/-- The result array as one function of the five argument arrays: entry (b, n, o) is slice b's result at (n, o). -/
def G (X : S64x4096x128.Idx → EReal) (wq wk wv wl : S128x128.Idx → EReal) : S64x4096x128.Idx → EReal :=
  fun i => Cert.Spec.out (bSlice X (i 0)) (wM wq) (wM wk) (wM wv) (wM wl) (i 1) (i 2)

/-- `G` of the argument arrays as launched. -/
abbrev GA (c : Dev nD) : S64x4096x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The index maps over the grid: the input slice and the output block move with the point along the first axis and
    sit at block 0 on the other two; the weight blocks sit at block (0, 0). -/
theorem idx_facts : ∀ t : Fin cfg0.N,
    win0_5.index t (0 : Fin 3) = t.val ∧ win0_5.index t (1 : Fin 3) = 0 ∧ win0_5.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The input slice at point t is batch slice t of the input array. -/
theorem slice_apply (c : Dev nD) (t : Fin cfg0.N) (x : S1x4096x128.Idx) (k : S64x4096x128.Idx)
    (hk0 : (k 0).val = t.val) (hk1 : (k 1).val = (x 1).val) (hk2 : (k 2).val = (x 2).val) :
    (iblk m c 0 t : Vec Ideal S1x4096x128 .f32) x = (m ((c : Thread nD τ).loc main_arg0) : S64x4096x128.Idx → EReal) k := by
  obtain ⟨-, -, -, e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1 + 1 * (x 0).val = (k 0).val; have h0 : (x 0).val < 1 := (x 0).isLt; rw [e0, hk0]; omega
  | ⟨1, _⟩ => show win0_0.index t 1 * 4096 + 1 * (x 1).val = (k 1).val; rw [e1, hk1]; omega
  | ⟨2, _⟩ => show win0_0.index t 2 * 128 + 1 * (x 2).val = (k 2).val; rw [e2, hk2]; omega

/-- A weight block at any point is the whole weight array. -/
theorem w1_eq (c : Dev nD) (t : Fin cfg0.N) :
    (iblk m c 1 t : Vec Ideal S128x128 .f32) = (m ((c : Thread nD τ).loc main_arg1) : S128x128.Idx → EReal) := by
  obtain ⟨-, -, -, -, -, -, e0, e1, -⟩ := idx_facts t
  funext x
  unfold iblk
  rw [View.read_apply]
  show V m c main_arg1 _ = m (c.tc.loc main_arg1) _
  unfold V
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

theorem w2_eq (c : Dev nD) (t : Fin cfg0.N) :
    (iblk m c 2 t : Vec Ideal S128x128 .f32) = (m ((c : Thread nD τ).loc main_arg2) : S128x128.Idx → EReal) := by
  obtain ⟨-, -, -, -, -, -, -, -, e0, e1, -⟩ := idx_facts t
  funext x
  unfold iblk
  rw [View.read_apply]
  show V m c main_arg2 _ = m (c.tc.loc main_arg2) _
  unfold V
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

theorem w3_eq (c : Dev nD) (t : Fin cfg0.N) :
    (iblk m c 3 t : Vec Ideal S128x128 .f32) = (m ((c : Thread nD τ).loc main_arg3) : S128x128.Idx → EReal) := by
  obtain ⟨-, -, -, -, -, -, -, -, -, -, e0, e1, -⟩ := idx_facts t
  funext x
  unfold iblk
  rw [View.read_apply]
  show V m c main_arg3 _ = m (c.tc.loc main_arg3) _
  unfold V
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

theorem w4_eq (c : Dev nD) (t : Fin cfg0.N) :
    (iblk m c 4 t : Vec Ideal S128x128 .f32) = (m ((c : Thread nD τ).loc main_arg4) : S128x128.Idx → EReal) := by
  obtain ⟨-, -, -, -, -, -, -, -, -, -, -, -, e0, e1⟩ := idx_facts t
  funext x
  unfold iblk
  rw [View.read_apply]
  show V m c main_arg4 _ = m (c.tc.loc main_arg4) _
  unfold V
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

/-- The body's block at any index of its shape: the first coordinate of a [1, 4096, 128] index is 0. -/
theorem out_at (x0 : Vec Ideal S1x4096x128 .f32) (x1 x2 x3 x4 : Vec Ideal S128x128 .f32) (y : S1x4096x128.Idx) :
    out0_5 (F := Ideal) x0 x1 x2 x3 x4 y
      = Cert.Spec.out (sliceMat x0) (wMat x1) (wMat x2) (wMat x3) (wMat x4) (y 1) (y 2) := by
  have hy : y = ix3 (0 : Fin 1) (y 1) (y 2) := by
    funext a
    match a with
    | ⟨0, _⟩ => exact Fin.ext (by have h0 : (y 0).val < 1 := (y 0).isLt; show (y 0).val = 0; omega)
    | ⟨1, _⟩ => rfl
    | ⟨2, _⟩ => rfl
  calc out0_5 (F := Ideal) x0 x1 x2 x3 x4 y
      = out0_5 (F := Ideal) x0 x1 x2 x3 x4 (ix3 (0 : Fin 1) (y 1) (y 2)) := congrArg _ hy
    _ = _ := out_apply x0 x1 x2 x3 x4 (y 1) (y 2)

/-- WHAT POINT t WRITES BACK is block t of `G` of the argument arrays. -/
theorem flushed_eq (c : Dev nD) (t : Fin cfg0.N) :
    (dats m 0 c).flushed 5 t = ((cfg0.win 5).blk t).view.read (Elt Ideal) (GA m c) := by
  obtain ⟨e0, e1, e2, -⟩ := idx_facts t
  rw [flushed5]
  funext j
  rw [View.read_apply]
  show out0_5 (F := Ideal) (iblk m c 0 t) (iblk m c 1 t) (iblk m c 2 t) (iblk m c 3 t) (iblk m c 4 t) j = GA m c (((cfg0.win 5).blk t).view.emb j)
  refine (out_at (iblk m c 0 t) (iblk m c 1 t) (iblk m c 2 t) (iblk m c 3 t) (iblk m c 4 t) j).trans ?_
  rw [w1_eq, w2_eq, w3_eq, w4_eq]
  have h1 : ((((cfg0.win 5).blk t).view.emb j) 1).val = (j 1).val := by
    show win0_5.index t 1 * 4096 + 1 * (j 1).val = (j 1).val; rw [e1]; omega
  have h2 : ((((cfg0.win 5).blk t).view.emb j) 2).val = (j 2).val := by
    show win0_5.index t 2 * 128 + 1 * (j 2).val = (j 2).val; rw [e2]; omega
  have h0 : ((((cfg0.win 5).blk t).view.emb j) 0).val = t.val := by
    have hj : (j 0).val < 1 := (j 0).isLt
    show win0_5.index t 0 * 1 + 1 * (j 0).val = t.val; rw [e0]; omega
  have hs : sliceMat (iblk m c 0 t) = bSlice (m ((c : Thread nD τ).loc main_arg0)) ((((cfg0.win 5).blk t).view.emb j) 0) := by
    funext n i
    exact slice_apply m c t (ix3 (0 : Fin 1) n i) (ix3 ((((cfg0.win 5).blk t).view.emb j) 0) n i) h0 rfl rfl
  show Cert.Spec.out (sliceMat (iblk m c 0 t)) _ _ _ _ (j 1) (j 2) = Cert.Spec.out (bSlice _ ((((cfg0.win 5).blk t).view.emb j) 0)) _ _ _ _ ((((cfg0.win 5).blk t).view.emb j) 1) ((((cfg0.win 5).blk t).view.emb j) 2)
  rw [hs, Fin.ext h1, Fin.ext h2]
  rfl

/-- An index of the array is in point t's block iff each coordinate is in the block's range on its axis. -/
theorem mem_blk (t : Fin cfg0.N) (i : S64x4096x128.Idx) :
    i ∈ ((cfg0.win 5).blk t).view.set ↔ ∀ a : Fin 3, win0_5.index t a * S1x4096x128.size a ≤ (i a).val ∧ (i a).val < win0_5.index t a * S1x4096x128.size a + S1x4096x128.size a := by
  show i ∈ ((View.whole main_v0).slice (win0_5.rect t)).set ↔ _
  rw [View.set_slice_whole, Rect.mem_set_unit]
  exact Iff.rfl

/-- The 64 blocks tile the array: entry (b, n, o) is in point b's block. -/
theorem cover (i : S64x4096x128.Idx) : ∃ t : Fin cfg0.N, (cfg0.win 5).flush t = true ∧ i ∈ ((cfg0.win 5).blk t).view.set := by
  have hi0 : (i 0).val < 64 := (i 0).isLt
  have hi1 : (i 1).val < 4096 := (i 1).isLt
  have hi2 : (i 2).val < 128 := (i 2).isLt
  obtain ⟨t, ht⟩ : ∃ t : Fin cfg0.N, t.val = (i 0).val := ⟨⟨(i 0).val, by rw [show cfg0.N = 64 from N_0]; exact hi0⟩, rfl⟩
  obtain ⟨e0, e1, e2, -⟩ := idx_facts t
  refine ⟨t, flush0_5 t, ?_⟩
  rw [mem_blk]
  intro a
  match a with
  | ⟨0, _⟩ => show win0_5.index t 0 * 1 ≤ (i 0).val ∧ (i 0).val < win0_5.index t 0 * 1 + 1; rw [e0]; omega
  | ⟨1, _⟩ => show win0_5.index t 1 * 4096 ≤ (i 1).val ∧ (i 1).val < win0_5.index t 1 * 4096 + 4096; rw [e1]; omega
  | ⟨2, _⟩ => show win0_5.index t 2 * 128 ≤ (i 2).val ∧ (i 2).val < win0_5.index t 2 * 128 + 128; rw [e2]; omega

/-- THE ARRAY after the run is `G` of the argument arrays. -/
theorem final (c : Dev nD) : (dats m 0 c).arrAt 5 cfg0.N = GA m c :=
  (dats m 0 c).arrAt_eq_of_cover 5 (GA m c) (fun t _ => flushed_eq m c t) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefOps.lean ====
/- The reference's @main as the list of its host operations, in order, each call of the variance helper and of the
   select helper inside it written out at its call site over that call's own buffers. -/
import proofs.«100207_j82643760710412_1_alg».proof.Proof.Gen.ReferenceIdeal
import Idealize.ShloMosaic.Lib.StableHlo.Run

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- @main's 95 operations, in order. -/
abbrev ops : List (HloOp τ sig (Elt F)) :=
  [ StableHlo.binary main_arg0 main_arg1 main_v0 ((fun l r => Host.dotGeneral dot_S64x4096x128_S128x128_S64x4096x128_2_1_01_0_n_n none l r) : (⟨S64x4096x128, .f32⟩ : BufTy).Contents (Elt F) → (⟨S128x128, .f32⟩ : BufTy).Contents (Elt F) → (⟨S64x4096x128, .f32⟩ : BufTy).Contents (Elt F)),
    StableHlo.binary main_arg0 main_arg2 main_v1 ((fun l r => Host.dotGeneral dot_S64x4096x128_S128x128_S64x4096x128_2_1_01_0_n_n none l r) : (⟨S64x4096x128, .f32⟩ : BufTy).Contents (Elt F) → (⟨S128x128, .f32⟩ : BufTy).Contents (Elt F) → (⟨S64x4096x128, .f32⟩ : BufTy).Contents (Elt F)),
    StableHlo.binary main_arg0 main_arg3 main_v2 ((fun l r => Host.dotGeneral dot_S64x4096x128_S128x128_S64x4096x128_2_1_01_0_n_n none l r) : (⟨S64x4096x128, .f32⟩ : BufTy).Contents (Elt F) → (⟨S128x128, .f32⟩ : BufTy).Contents (Elt F) → (⟨S64x4096x128, .f32⟩ : BufTy).Contents (Elt F)),
    StableHlo.binary main_v1 main_v2 main_v3 (mulf : (⟨S64x4096x128, .f32⟩ : BufTy).Contents (Elt F) → (⟨S64x4096x128, .f32⟩ : BufTy).Contents (Elt F) → (⟨S64x4096x128, .f32⟩ : BufTy).Contents (Elt F)),
    StableHlo.nullary main_cst (constant S_ .f32 0x00000000#32),
    StableHlo.binary main_v3 main_cst main_v4 ((fun x v => Host.reduceAdd x v reducesTo_S64x4096x128_S64x128_d1 h_S_) : (⟨S64x4096x128, .f32⟩ : BufTy).Contents (Elt F) → (⟨S_, .f32⟩ : BufTy).Contents (Elt F) → (⟨S64x128, .f32⟩ : BufTy).Contents (Elt F)),
    StableHlo.unary main_v4 main_v5 (broadcastInDim S64x1x128 ![0, 2] bcast_S64x128_S64x1x128_0_2 : (⟨S64x128, .f32⟩ : BufTy).Contents (Elt F) → (⟨S64x1x128, .f32⟩ : BufTy).Contents (Elt F)),
    StableHlo.nullary main_cst_0 (constant S_ .f32 0x45800000#32),
    StableHlo.unary main_cst_0 main_v6 (broadcastInDim S64x1x128 ![] bcast_S_S64x1x128 : (⟨S_, .f32⟩ : BufTy).Contents (Elt F) → (⟨S64x1x128, .f32⟩ : BufTy).Contents (Elt F)),
    StableHlo.binary main_v5 main_v6 main_v7 (Host.divf : (⟨S64x1x128, .f32⟩ : BufTy).Contents (Elt F) → (⟨S64x1x128, .f32⟩ : BufTy).Contents (Elt F) → (⟨S64x1x128, .f32⟩ : BufTy).Contents (Elt F)),
    StableHlo.unary main_v7 main_v8 (broadcastInDim S64x4096x128 ![0, 1, 2] bcast_S64x1x128_S64x4096x128_0_1_2 : (⟨S64x1x128, .f32⟩ : BufTy).Contents (Elt F) → (⟨S64x4096x128, .f32⟩ : BufTy).Contents (Elt F)),
    StableHlo.binary main_v0 main_v8 main_v9 (mulf : (⟨S64x4096x128, .f32⟩ : BufTy).Contents (Elt F) → (⟨S64x4096x128, .f32⟩ : BufTy).Contents (Elt F) → (⟨S64x4096x128, .f32⟩ : BufTy).Contents (Elt F)),
    StableHlo.binary main_v9 main_v2 main_v10 (addf : (⟨S64x4096x128, .f32⟩ : BufTy).Contents (Elt F) → (⟨S64x4096x128, .f32⟩ : BufTy).Contents (Elt F) → (⟨S64x4096x128, .f32⟩ : BufTy).Contents (Elt F)),
    StableHlo.reshape main_v10 main_v11 rfl shapeCasts_S64x4096x128_S64x524288,
    StableHlo.nullary main_cst_1 (constant S_ .f32 0x00000000#32),
    StableHlo.binary main_v11 main_cst_1 main_v12 ((fun x v => Host.reduceAdd x v reducesTo_S64x524288_S64_d1 h_S_) : (⟨S64x524288, .f32⟩ : BufTy).Contents (Elt F) → (⟨S_, .f32⟩ : BufTy).Contents (Elt F) → (⟨S64, .f32⟩ : BufTy).Contents (Elt F)),
    StableHlo.unary main_v12 main_v13 (broadcastInDim S64x1 ![0] bcast_S64_S64x1_0 : (⟨S64, .f32⟩ : BufTy).Contents (Elt F) → (⟨S64x1, .f32⟩ : BufTy).Contents (Elt F)),
    StableHlo.nullary main_cst_2 (constant S_ .f32 0x49000000#32),
    StableHlo.unary main_cst_2 main_v14 (broadcastInDim S64x1 ![] bcast_S_S64x1 : (⟨S_, .f32⟩ : BufTy).Contents (Elt F) → (⟨S64x1, .f32⟩ : BufTy).Contents (Elt F)),
    StableHlo.binary main_v13 main_v14 main_v15 (Host.divf : (⟨S64x1, .f32⟩ : BufTy).Contents (Elt F) → (⟨S64x1, .f32⟩ : BufTy).Contents (Elt F) → (⟨S64x1, .f32⟩ : BufTy).Contents (Elt F)),
    StableHlo.nullary main_c (constantI S_ 32 0#32),
    StableHlo.TRef.nullary main_call0.cst (constant S_ .f32 0x00000000#32),
    StableHlo.TRef.binary (.of main_v11) main_call0.cst main_call0.v0 (fun x v => Host.reduceAdd x v reducesTo_S64x524288_S64_d1 h_S_),
    StableHlo.TRef.unary main_call0.v0 main_call0.v1 (broadcastInDim S64x1 ![0] bcast_S64_S64x1_0),
    StableHlo.TRef.nullary main_call0.cst_0 (constant S_ .f32 0x49000000#32),
    StableHlo.TRef.unary main_call0.cst_0 main_call0.v2 (broadcastInDim S64x1 ![] bcast_S_S64x1),
    StableHlo.TRef.binary main_call0.v1 main_call0.v2 main_call0.v3 Host.divf,
    StableHlo.TRef.unary main_call0.v3 main_call0.v4 (broadcastInDim S64x524288 ![0, 1] bcast_S64x1_S64x524288_0_1),
    StableHlo.TRef.binary (.of main_v11) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x49000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S64x524288_S64_d1 h_S_),
    StableHlo.TRef.unary main_call0.v9 main_call0.v10 (broadcastInDim S64x1 ![0] bcast_S64_S64x1_0),
    StableHlo.TRef.unary main_call0.v8 main_call0.v11 (broadcastInDim S64x1 ![] bcast_S_S64x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64x1 ![] bcast_S_S64x1),
    StableHlo.TRef.ternary main_call0.v13 main_call0.v12 main_call0.call0.v1 main_call0.call0.v2 (fun p a b => select (broadcastInDim S64x1 ![] bcast_S_S64x1 p) a b),
    StableHlo.unary main_v15 main_v17 (broadcastInDim S64x524288 ![0, 1] bcast_S64x1_S64x524288_0_1 : (⟨S64x1, .f32⟩ : BufTy).Contents (Elt F) → (⟨S64x524288, .f32⟩ : BufTy).Contents (Elt F)),
    StableHlo.binary main_v11 main_v17 main_v18 (subf : (⟨S64x524288, .f32⟩ : BufTy).Contents (Elt F) → (⟨S64x524288, .f32⟩ : BufTy).Contents (Elt F) → (⟨S64x524288, .f32⟩ : BufTy).Contents (Elt F)),
    StableHlo.nullary main_cst_3 (constant S_ .f32 0x3727C5AC#32),
    StableHlo.unary main_cst_3 main_v19 (broadcastInDim S64x1 ![] bcast_S_S64x1 : (⟨S_, .f32⟩ : BufTy).Contents (Elt F) → (⟨S64x1, .f32⟩ : BufTy).Contents (Elt F)),
    StableHlo.binary main_v16 main_v19 main_v20 (addf : (⟨S64x1, .f32⟩ : BufTy).Contents (Elt F) → (⟨S64x1, .f32⟩ : BufTy).Contents (Elt F) → (⟨S64x1, .f32⟩ : BufTy).Contents (Elt F)),
    StableHlo.unary main_v20 main_v21 (Host.rsqrt : (⟨S64x1, .f32⟩ : BufTy).Contents (Elt F) → (⟨S64x1, .f32⟩ : BufTy).Contents (Elt F)),
    StableHlo.unary main_v21 main_v22 (broadcastInDim S64x524288 ![0, 1] bcast_S64x1_S64x524288_0_1 : (⟨S64x1, .f32⟩ : BufTy).Contents (Elt F) → (⟨S64x524288, .f32⟩ : BufTy).Contents (Elt F)),
    StableHlo.binary main_v18 main_v22 main_v23 (mulf : (⟨S64x524288, .f32⟩ : BufTy).Contents (Elt F) → (⟨S64x524288, .f32⟩ : BufTy).Contents (Elt F) → (⟨S64x524288, .f32⟩ : BufTy).Contents (Elt F)),
    StableHlo.reshape main_v23 main_v24 rfl shapeCasts_S64x524288_S64x4096x128,
    StableHlo.binary main_v24 main_arg4 main_v25 ((fun l r => Host.dotGeneral dot_S64x4096x128_S128x128_S64x4096x128_2_1_01_0_n_n none l r) : (⟨S64x4096x128, .f32⟩ : BufTy).Contents (Elt F) → (⟨S128x128, .f32⟩ : BufTy).Contents (Elt F) → (⟨S64x4096x128, .f32⟩ : BufTy).Contents (Elt F)),
    StableHlo.reshape main_v25 main_v26 rfl shapeCasts_S64x4096x128_S64x524288,
    StableHlo.nullary main_cst_4 (constant S_ .f32 0x00000000#32),
    StableHlo.binary main_v26 main_cst_4 main_v27 ((fun x v => Host.reduceAdd x v reducesTo_S64x524288_S64_d1 h_S_) : (⟨S64x524288, .f32⟩ : BufTy).Contents (Elt F) → (⟨S_, .f32⟩ : BufTy).Contents (Elt F) → (⟨S64, .f32⟩ : BufTy).Contents (Elt F)),
    StableHlo.unary main_v27 main_v28 (broadcastInDim S64x1 ![0] bcast_S64_S64x1_0 : (⟨S64, .f32⟩ : BufTy).Contents (Elt F) → (⟨S64x1, .f32⟩ : BufTy).Contents (Elt F)),
    StableHlo.nullary main_cst_5 (constant S_ .f32 0x49000000#32),
    StableHlo.unary main_cst_5 main_v29 (broadcastInDim S64x1 ![] bcast_S_S64x1 : (⟨S_, .f32⟩ : BufTy).Contents (Elt F) → (⟨S64x1, .f32⟩ : BufTy).Contents (Elt F)),
    StableHlo.binary main_v28 main_v29 main_v30 (Host.divf : (⟨S64x1, .f32⟩ : BufTy).Contents (Elt F) → (⟨S64x1, .f32⟩ : BufTy).Contents (Elt F) → (⟨S64x1, .f32⟩ : BufTy).Contents (Elt F)),
    StableHlo.nullary main_c_6 (constantI S_ 32 0#32),
    StableHlo.TRef.nullary main_call1.cst (constant S_ .f32 0x00000000#32),
    StableHlo.TRef.binary (.of main_v26) main_call1.cst main_call1.v0 (fun x v => Host.reduceAdd x v reducesTo_S64x524288_S64_d1 h_S_),
    StableHlo.TRef.unary main_call1.v0 main_call1.v1 (broadcastInDim S64x1 ![0] bcast_S64_S64x1_0),
    StableHlo.TRef.nullary main_call1.cst_0 (constant S_ .f32 0x49000000#32),
    StableHlo.TRef.unary main_call1.cst_0 main_call1.v2 (broadcastInDim S64x1 ![] bcast_S_S64x1),
    StableHlo.TRef.binary main_call1.v1 main_call1.v2 main_call1.v3 Host.divf,
    StableHlo.TRef.unary main_call1.v3 main_call1.v4 (broadcastInDim S64x524288 ![0, 1] bcast_S64x1_S64x524288_0_1),
    StableHlo.TRef.binary (.of main_v26) main_call1.v4 main_call1.v5 subf,
    StableHlo.TRef.binary main_call1.v5 main_call1.v5 main_call1.v6 mulf,
    StableHlo.TRef.unary (.of main_c_6) main_call1.v7 (sitofp .f32),
    StableHlo.TRef.nullary main_call1.cst_1 (constant S_ .f32 0x49000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S64x524288_S64_d1 h_S_),
    StableHlo.TRef.unary main_call1.v9 main_call1.v10 (broadcastInDim S64x1 ![0] bcast_S64_S64x1_0),
    StableHlo.TRef.unary main_call1.v8 main_call1.v11 (broadcastInDim S64x1 ![] bcast_S_S64x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64x1 ![] bcast_S_S64x1),
    StableHlo.TRef.ternary main_call1.v13 main_call1.v12 main_call1.call0.v1 main_call1.call0.v2 (fun p a b => select (broadcastInDim S64x1 ![] bcast_S_S64x1 p) a b),
    StableHlo.unary main_v30 main_v32 (broadcastInDim S64x524288 ![0, 1] bcast_S64x1_S64x524288_0_1 : (⟨S64x1, .f32⟩ : BufTy).Contents (Elt F) → (⟨S64x524288, .f32⟩ : BufTy).Contents (Elt F)),
    StableHlo.binary main_v26 main_v32 main_v33 (subf : (⟨S64x524288, .f32⟩ : BufTy).Contents (Elt F) → (⟨S64x524288, .f32⟩ : BufTy).Contents (Elt F) → (⟨S64x524288, .f32⟩ : BufTy).Contents (Elt F)),
    StableHlo.nullary main_cst_7 (constant S_ .f32 0x3727C5AC#32),
    StableHlo.unary main_cst_7 main_v34 (broadcastInDim S64x1 ![] bcast_S_S64x1 : (⟨S_, .f32⟩ : BufTy).Contents (Elt F) → (⟨S64x1, .f32⟩ : BufTy).Contents (Elt F)),
    StableHlo.binary main_v31 main_v34 main_v35 (addf : (⟨S64x1, .f32⟩ : BufTy).Contents (Elt F) → (⟨S64x1, .f32⟩ : BufTy).Contents (Elt F) → (⟨S64x1, .f32⟩ : BufTy).Contents (Elt F)),
    StableHlo.unary main_v35 main_v36 (Host.rsqrt : (⟨S64x1, .f32⟩ : BufTy).Contents (Elt F) → (⟨S64x1, .f32⟩ : BufTy).Contents (Elt F)),
    StableHlo.unary main_v36 main_v37 (broadcastInDim S64x524288 ![0, 1] bcast_S64x1_S64x524288_0_1 : (⟨S64x1, .f32⟩ : BufTy).Contents (Elt F) → (⟨S64x524288, .f32⟩ : BufTy).Contents (Elt F)),
    StableHlo.binary main_v33 main_v37 main_v38 (mulf : (⟨S64x524288, .f32⟩ : BufTy).Contents (Elt F) → (⟨S64x524288, .f32⟩ : BufTy).Contents (Elt F) → (⟨S64x524288, .f32⟩ : BufTy).Contents (Elt F)),
    StableHlo.reshape main_v38 main_v39 rfl shapeCasts_S64x524288_S64x4096x128,
    StableHlo.unary main_v39 main_v40 (Host.tanh : (⟨S64x4096x128, .f32⟩ : BufTy).Contents (Elt F) → (⟨S64x4096x128, .f32⟩ : BufTy).Contents (Elt F)) ]

/-- Every operation touches TensorCore references only. -/
theorem ops_sub : (ops : List (HloOp τ sig (Elt F))).Forall fun op => op.bufs ⊆ tcRefs τ sig :=
  ⟨binary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., binary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., unary_bufs_sub ..⟩

end Cert.ReferenceIdeal.Host

end
-- ==== Proof.RefRun.lean ====
/-
  The reference's run. Its @main is a straight line of host operations once the two calls of the variance helper (and
  the select helper inside each) are written out at their call sites; run in order from the launch contents, every
  buffer ends at the fold of the operations over those contents.
-/
import proofs.«100207_j82643760710412_1_alg».proof.Proof.RefOps

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
set_option maxHeartbeats 4000000 in
/-- @main is that straight line: the helpers' bodies unfolded at their calls, both sides are one chain of steps once
    the sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every buffer ends at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Host

end
-- ==== Proof.RefTerm.lean ====
/-
  The reference's result as one function of the five argument arrays, written as the operations compose.

  Three projections of the whole [64, 4096, 128] input; the column sums of `k ∘ v` over the 4096 rows of each batch
  slice, divided by 4096 and broadcast back; `w = q ∘ s + v`; each slice flattened to 524288 entries and normalised
  (`lnFlat`: subtract the row mean, multiply by the reciprocal square root of row variance plus ε, the variance being
  the mean of the squared deviations, selected against a not-a-number constant by the test "count − 0 > 0");
  unflattened, projected by `wl`, flattened and normalised again, unflattened, tanh.
-/
import proofs.«100207_j82643760710412_1_alg».proof.Proof.Gen.ReferenceIdeal

noncomputable section

namespace Cert.ReferenceIdeal.Host

open Cert.ReferenceIdeal Cert.ReferenceIdeal.Gen Idealize.ShloMosaic

variable {F : FTy → Type} [FloatOps F]

/-- One projection: entry (b, n, h) is the sum over i of x[b, n, i] · w[h, i]. -/
def dotW (x : FVec F S64x4096x128 .f32) (w : FVec F S128x128 .f32) : FVec F S64x4096x128 .f32 :=
  Host.dotGeneral dot_S64x4096x128_S128x128_S64x4096x128_2_1_01_0_n_n none x w

/-- `q ∘ s + v` with `s` the per-slice column average of `k ∘ v`. -/
def mixed (x : FVec F S64x4096x128 .f32) (wq wk wv : FVec F S128x128 .f32) : FVec F S64x4096x128 .f32 :=
  addf
    (mulf (dotW x wq)
      (broadcastInDim S64x4096x128 ![0, 1, 2] bcast_S64x1x128_S64x4096x128_0_1_2
        (Host.divf
          (broadcastInDim S64x1x128 ![0, 2] bcast_S64x128_S64x1x128_0_2
            (Host.reduceAdd (mulf (dotW x wk) (dotW x wv)) (constant S_ .f32 0x00000000#32)
              reducesTo_S64x4096x128_S64x128_d1 h_S_))
          (broadcastInDim S64x1x128 ![] bcast_S_S64x1x128 (constant S_ .f32 0x45800000#32)))))
    (dotW x wv)

/-- The mean of each flattened slice, as a column. -/
def rowMean (z : FVec F S64x524288 .f32) : FVec F S64x1 .f32 :=
  Host.divf
    (broadcastInDim S64x1 ![0] bcast_S64_S64x1_0
      (Host.reduceAdd z (constant S_ .f32 0x00000000#32) reducesTo_S64x524288_S64_d1 h_S_))
    (broadcastInDim S64x1 ![] bcast_S_S64x1 (constant S_ .f32 0x49000000#32))

/-- Each flattened slice less its mean. -/
def centred (z : FVec F S64x524288 .f32) : FVec F S64x524288 .f32 :=
  subf z (broadcastInDim S64x524288 ![0, 1] bcast_S64x1_S64x524288_0_1 (rowMean z))

/-- The entry count less the (zero) degrees-of-freedom correction. -/
def denom : FVec F S_ .f32 :=
  subf (constant S_ .f32 0x49000000#32) (sitofp .f32 (constantI S_ 32 0#32))

/-- The variance of each flattened slice, as a column: the mean squared deviation where the denominator is positive. -/
def rowVar (z : FVec F S64x524288 .f32) : FVec F S64x1 .f32 :=
  select
    (broadcastInDim S64x1 ![] bcast_S_S64x1 (cmpf .ogt (denom (F := F)) (constant S_ .f32 0x00000000#32)))
    (Host.divf
      (broadcastInDim S64x1 ![0] bcast_S64_S64x1_0
        (Host.reduceAdd (mulf (centred z) (centred z)) (constant S_ .f32 0x00000000#32) reducesTo_S64x524288_S64_d1 h_S_))
      (broadcastInDim S64x1 ![] bcast_S_S64x1 (denom (F := F))))
    (broadcastInDim S64x1 ![] bcast_S_S64x1 (id (constant S_ .f32 0x7FC00000#32)))

/-- Each flattened slice normalised. -/
def lnFlat (z : FVec F S64x524288 .f32) : FVec F S64x524288 .f32 :=
  mulf (centred z)
    (broadcastInDim S64x524288 ![0, 1] bcast_S64x1_S64x524288_0_1
      (Host.rsqrt (addf (rowVar z) (broadcastInDim S64x1 ![] bcast_S_S64x1 (constant S_ .f32 0x3727C5AC#32)))))

/-- The reference's result. -/
def refOut (x : FVec F S64x4096x128 .f32) (wq wk wv wl : FVec F S128x128 .f32) : FVec F S64x4096x128 .f32 :=
  Host.tanh
    (shapeCast S64x4096x128
      (lnFlat
        (shapeCast S64x524288
          (dotW
            (shapeCast S64x4096x128
              (lnFlat (shapeCast S64x524288 (mixed x wq wk wv) shapeCasts_S64x4096x128_S64x524288))
              shapeCasts_S64x524288_S64x4096x128)
            wl)
          shapeCasts_S64x4096x128_S64x524288))
      shapeCasts_S64x524288_S64x4096x128)

end Cert.ReferenceIdeal.Host

end
-- ==== Proof.RefStage.lean ====
/-
  The reference's run lands on `refOut`: after the operations have run in order from contents `V`, the result buffer
  holds `refOut` of the five argument buffers' contents, and the argument buffers hold what they held.
-/
import proofs.«100207_j82643760710412_1_alg».proof.Proof.RefOps
import proofs.«100207_j82643760710412_1_alg».proof.Proof.RefTerm

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/- The fold is unrolled one operation at a time. Read at a buffer, an operation's result is its function of its operand
   buffers where the buffer is the one it writes and the earlier contents elsewhere; which of the two holds is decided by
   comparing literal references, and a typed reference's cast is the identity at a literal reference. Read backwards from
   the last buffer this is the composition `refOut` names: each variance call's select writes the caller's own result
   buffer, the two normalisations read the flattened array and the column mean from the same buffers the calls read, and
   every constant buffer holds its literal. The sums, quotients, reciprocal square roots, hyperbolic tangents, broadcasts
   and reshapes are kept as atoms throughout: the two sides apply them to equal arguments and nothing of their values is
   used. -/
attribute [local irreducible] Host.reduceAdd Host.divf Host.rsqrt Host.tanh broadcastInDim shapeCast in
set_option maxRecDepth 8192 in
set_option maxHeartbeats 4000000 in
theorem out_eq (V : Valuation τ sig (Elt F)) :
    after ops V (main_v40 : DevRef τ sig)
      = refOut (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

/- No operation writes an argument buffer: at each of the ninety-five steps the argument's reference differs from the
   step's result reference, so the step leaves the contents there as they were. -/
set_option maxRecDepth 8192 in
theorem arg0_eq (V : Valuation τ sig (Elt F)) : after ops V (main_arg0 : DevRef τ sig) = V (main_arg0 : DevRef τ sig) := by
  simp only [after_cons, after_nil]
  rfl
set_option maxRecDepth 8192 in
theorem arg1_eq (V : Valuation τ sig (Elt F)) : after ops V (main_arg1 : DevRef τ sig) = V (main_arg1 : DevRef τ sig) := by
  simp only [after_cons, after_nil]
  rfl
set_option maxRecDepth 8192 in
theorem arg2_eq (V : Valuation τ sig (Elt F)) : after ops V (main_arg2 : DevRef τ sig) = V (main_arg2 : DevRef τ sig) := by
  simp only [after_cons, after_nil]
  rfl
set_option maxRecDepth 8192 in
theorem arg3_eq (V : Valuation τ sig (Elt F)) : after ops V (main_arg3 : DevRef τ sig) = V (main_arg3 : DevRef τ sig) := by
  simp only [after_cons, after_nil]
  rfl
set_option maxRecDepth 8192 in
theorem arg4_eq (V : Valuation τ sig (Elt F)) : after ops V (main_arg4 : DevRef τ sig) = V (main_arg4 : DevRef τ sig) := by
  simp only [after_cons, after_nil]
  rfl

end Cert.ReferenceIdeal.Host

end
-- ==== Proof.RefReadLn.lean ====
/-
  `lnFlat` read at an entry. Row b of a [64, 524288] array is a [4096, 128] matrix laid out row after row; `lnFlat`
  at (b, n·128 + h) is that matrix normalised over all its entries, at (n, h): subtract the mean of the row, multiply
  by the reciprocal square root of (the mean squared deviation plus ε). The test "count − 0 > 0" holds (the count is
  524288), so the select takes the variance; the sums' zero initial values and the zero correction drop out.
-/
import proofs.«100207_j82643760710412_1_alg».proof.Proof.RefTerm
import proofs.«100207_j82643760710412_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Host

open Cert.ReferenceIdeal Cert.ReferenceIdeal.Gen Idealize.ShloMosaic Idealize.ShloMosaic.ValueIdx

/-! ### The host operations read at one entry -/

/-- The shape fact of the sum over axis 1 of a [64, 524288] array, in the form that names the inserted index. -/
theorem reduces_d1 : S64x524288.Reduces [1] S64 := by decide

/-- The index of the [64, 524288] array that lies over row b with coordinate k on the summed axis is (b, k). -/
theorem lift_d1 (b : Fin 64) (k : Fin 524288) : reduces_d1.lift (ix1 b) k = ix2 b k := by
  funext a
  match a with
  | ⟨0, _⟩ => exact Fin.ext rfl
  | ⟨1, _⟩ => exact Fin.ext rfl

/-- The sum over axis 1 from a zero initial value, at row b: the sum of the row's 524288 entries (0 + s = s). -/
theorem rowSum_apply (y : FVec Ideal S64x524288 .f32) (b : Fin 64) :
    Host.reduceAdd y (constant S_ .f32 0x00000000#32) reducesTo_S64x524288_S64_d1 h_S_ (ix1 b)
      = ∑ k : Fin 524288, y (ix2 b k) := by
  show Ideal.hostReduceAdd reducesTo_S64x524288_S64_d1 y (Ideal.ofBits .f32 0x00000000#32) (ix1 b) = _
  rw [Ideal.hostReduceAdd_single reducesTo_S64x524288_S64_d1 reduces_d1, Ideal.ofBits_zero_f32, zero_add]
  exact Finset.sum_congr rfl fun k _ => congrArg y (lift_d1 b k)

/-- The denominator: the entry count less the integer zero converted, which is the real 0; x − 0 = x. -/
theorem denom_apply (k : S_.Idx) : denom (F := Ideal) k = Cert.Spec.cCount := by
  show Ideal.ofBits .f32 0x49000000#32 - (((0#32 : BitVec 32).toInt : ℝ) : EReal) = Cert.Spec.cCount
  have h0 : (((0#32 : BitVec 32).toInt : ℝ) : EReal) = 0 := by simp
  rw [h0, sub_zero]
  rfl

/-- A [64] array broadcast to a [64, 1] column reads its entry b at (b, c). -/
theorem bcast_col (X : FVec Ideal S64 .f32) (b : Fin 64) (c : Fin 1) :
    broadcastInDim S64x1 ![0] bcast_S64_S64x1_0 X (ix2 b c) = X (ix1 b) :=
  broadcastInDim_apply _ _ X (ix2 b c) (ix1 b) (fun a => by
    match a with
    | ⟨0, _⟩ => rfl)

/-- A [64, 1] column broadcast along the rows of a [64, 524288] array reads its entry (b, 0) at (b, j). -/
theorem bcast_row (X : FVec Ideal S64x1 .f32) (b : Fin 64) (j : Fin 524288) :
    broadcastInDim S64x524288 ![0, 1] bcast_S64x1_S64x524288_0_1 X (ix2 b j) = X (ix2 b 0) :=
  broadcastInDim_apply _ _ X (ix2 b j) (ix2 b 0) (fun a => by
    match a with
    | ⟨0, _⟩ => rfl
    | ⟨1, _⟩ => rfl)

/-- A scalar broadcast to a [64, 1] column reads the scalar everywhere. -/
theorem bcast_scalar {α : Type} (X : S_.Idx → α) (j : S64x1.Idx) :
    broadcastInDim S64x1 ![] bcast_S_S64x1 X j = X ix0 :=
  broadcastInDim_apply _ _ X j ix0 (fun a => a.elim0)

/-- The mean of row b: the row's sum divided by the entry count. -/
theorem rowMean_apply (z : FVec Ideal S64x524288 .f32) (b : Fin 64) (c : Fin 1) :
    rowMean z (ix2 b c) = Ideal.div (∑ k : Fin 524288, z (ix2 b k)) Cert.Spec.cCount := by
  show Ideal.div (broadcastInDim S64x1 ![0] bcast_S64_S64x1_0
      (Host.reduceAdd z (constant S_ .f32 0x00000000#32) reducesTo_S64x524288_S64_d1 h_S_) (ix2 b c))
    (Ideal.ofBits .f32 0x49000000#32) = _
  rw [bcast_col, rowSum_apply]
  rfl

/-- Entry (b, j) less the mean of row b. -/
theorem centred_apply (z : FVec Ideal S64x524288 .f32) (b : Fin 64) (j : Fin 524288) :
    centred z (ix2 b j) = z (ix2 b j) - Ideal.div (∑ k : Fin 524288, z (ix2 b k)) Cert.Spec.cCount := by
  show z (ix2 b j) - broadcastInDim S64x524288 ![0, 1] bcast_S64x1_S64x524288_0_1 (rowMean z) (ix2 b j) = _
  rw [bcast_row, rowMean_apply]

/-- The test "denominator > 0" is the bit 1 everywhere: the denominator is the entry count, which is positive. -/
theorem cond_apply (j : S64x1.Idx) :
    broadcastInDim S64x1 ![] bcast_S_S64x1 (cmpf .ogt (denom (F := Ideal)) (constant S_ .f32 0x00000000#32)) j = 1#1 := by
  rw [bcast_scalar]
  show Ideal.cmp .ogt (denom (F := Ideal) ix0) (Ideal.ofBits .f32 0x00000000#32) = 1#1
  rw [denom_apply, Ideal.ofBits_zero_f32]
  show BitVec.ofBool (decide ((0 : EReal) < Cert.Spec.cCount)) = 1#1
  rw [decide_eq_true Cert.Spec.cCount_pos]
  rfl

/-- The variance of row b: the select takes its first branch, the sum of the squared deviations of the row divided by
    the entry count. -/
theorem rowVar_apply (z : FVec Ideal S64x524288 .f32) (b : Fin 64) (c : Fin 1) :
    rowVar z (ix2 b c)
      = Ideal.div (∑ k : Fin 524288, centred z (ix2 b k) * centred z (ix2 b k)) Cert.Spec.cCount := by
  show Scalar.select
      (broadcastInDim S64x1 ![] bcast_S_S64x1 (cmpf .ogt (denom (F := Ideal)) (constant S_ .f32 0x00000000#32)) (ix2 b c))
      (Ideal.div
        (broadcastInDim S64x1 ![0] bcast_S64_S64x1_0
          (Host.reduceAdd (mulf (centred z) (centred z)) (constant S_ .f32 0x00000000#32) reducesTo_S64x524288_S64_d1 h_S_)
          (ix2 b c))
        (broadcastInDim S64x1 ![] bcast_S_S64x1 (denom (F := Ideal)) (ix2 b c)))
      _ = _
  rw [cond_apply, select_one, bcast_col, rowSum_apply, bcast_scalar, denom_apply]
  rfl

/-- The normalised entry (b, j): the centred entry times the reciprocal square root of (row variance plus ε). -/
theorem lnFlat_entry (z : FVec Ideal S64x524288 .f32) (b : Fin 64) (j : Fin 524288) :
    lnFlat z (ix2 b j) = centred z (ix2 b j) * Ideal.rsqrt (rowVar z (ix2 b 0) + Cert.Spec.eps) := by
  show centred z (ix2 b j) * broadcastInDim S64x524288 ![0, 1] bcast_S64x1_S64x524288_0_1
      (Host.rsqrt (addf (rowVar z) (broadcastInDim S64x1 ![] bcast_S_S64x1 (constant S_ .f32 0x3727C5AC#32)))) (ix2 b j) = _
  rw [bcast_row]
  rfl

/-! ### The row as a matrix -/

/-- Row b of a [64, 524288] array as the [4096, 128] matrix it flattens: entry (n, h) sits at column n·128 + h. -/
def rowMat (z : FVec Ideal S64x524288 .f32) (b : Fin 64) : Cert.Spec.Mat 4096 128 :=
  fun n h => z (ix2 b (⟨n.val * 128 + h.val, by have := n.isLt; have := h.isLt; omega⟩ : Fin 524288))

/-- The matrix of row b at (j / 128, j % 128) is the row's entry j: (j / 128) · 128 + j % 128 = j. -/
theorem rowMat_flatIdx (z : FVec Ideal S64x524288 .f32) (b : Fin 64) (j : Fin 524288)
    (hp : j.val / 128 < 4096) (hq : j.val % 128 < 128) :
    rowMat z b ⟨j.val / 128, hp⟩ ⟨j.val % 128, hq⟩ = z (ix2 b j) :=
  congrArg (fun t : Fin 524288 => z (ix2 b t)) (Fin.ext (by show j.val / 128 * 128 + j.val % 128 = j.val; omega))

/-- So the flattened matrix's total is the sum of the row's 524288 entries … -/
theorem totalF_rowMat (z : FVec Ideal S64x524288 .f32) (b : Fin 64) :
    Cert.Spec.totalF (rowMat z b) = ∑ k : Fin 524288, z (ix2 b k) :=
  Finset.sum_congr rfl fun k _ => rowMat_flatIdx z b k _ _

/-- … its mean the row's mean … -/
theorem meanF_rowMat (z : FVec Ideal S64x524288 .f32) (b : Fin 64) :
    Cert.Spec.meanF (rowMat z b) = Ideal.div (∑ k : Fin 524288, z (ix2 b k)) Cert.Spec.cCount := by
  unfold Cert.Spec.meanF
  rw [totalF_rowMat]

/-- … and its mean squared deviation the row's: summand by summand both are the square of "entry less mean". -/
theorem varF_rowMat (z : FVec Ideal S64x524288 .f32) (b : Fin 64) :
    Cert.Spec.varF (rowMat z b)
      = Ideal.div (∑ k : Fin 524288, centred z (ix2 b k) * centred z (ix2 b k)) Cert.Spec.cCount := by
  unfold Cert.Spec.varF
  refine congrArg (fun t => Ideal.div t Cert.Spec.cCount) ?_
  unfold Cert.Spec.totalF
  refine Finset.sum_congr rfl fun k _ => ?_
  show (rowMat z b ⟨k.val / 128, _⟩ ⟨k.val % 128, _⟩ - Cert.Spec.meanF (rowMat z b))
      * (rowMat z b ⟨k.val / 128, _⟩ ⟨k.val % 128, _⟩ - Cert.Spec.meanF (rowMat z b)) = _
  rw [rowMat_flatIdx, meanF_rowMat, centred_apply]

theorem lnFlat_apply (z : FVec Ideal S64x524288 .f32) (b : Fin 64) (n : Fin 4096) (h : Fin 128) :
    lnFlat (F := Ideal) z (ix2 b (⟨n.val * 128 + h.val, by have := n.isLt; have := h.isLt; omega⟩ : Fin 524288))
      = Cert.Spec.normF (rowMat z b) n h := by
  rw [lnFlat_entry, rowVar_apply, centred_apply]
  unfold Cert.Spec.normF
  rw [varF_rowMat, meanF_rowMat]
  rfl

end Cert.ReferenceIdeal.Host

end
-- ==== Proof.RefRead.lean ====
/-
  `refOut` read at an entry. Entry (b, n, o) depends on batch slice b of the input alone: it is that slice's result
  `Spec.outF` at (n, o), the sums taken over the flattened slice. The test "count − 0 > 0" holds (the count is
  524288), so the variance is the mean squared deviation; the zero initial values of the sums and the zero
  correction drop out.
-/
import proofs.«100207_j82643760710412_1_alg».proof.Proof.RefTerm
import proofs.«100207_j82643760710412_1_alg».proof.Proof.Spec
import proofs.«100207_j82643760710412_1_alg».proof.Proof.RefReadLn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Host

open Cert.ReferenceIdeal Cert.ReferenceIdeal.Gen Idealize.ShloMosaic Idealize.ShloMosaic.ValueIdx

/-- Batch slice b of a [64, 4096, 128] array as a matrix. -/
def sliceMat (X : FVec Ideal S64x4096x128 .f32) (b : Fin 64) : Cert.Spec.Mat 4096 128 := fun n i => X (ix3 b n i)
/-- A [128, 128] weight array as a matrix. -/
def wMat (w : FVec Ideal S128x128 .f32) : Cert.Spec.Mat 128 128 := fun h i => w (ix2 h i)

namespace RefRead

/-! ### One projection read at an entry -/

/-- On the left operand's first free axis (the slice) the operand index reads the result's first coordinate. -/
theorem lhs_dotW_0 (i : S64x4096x128.Idx) (q : dot_S64x4096x128_S128x128_S64x4096x128_2_1_01_0_n_n.contr.Idx) :
    (dot_S64x4096x128_S128x128_S64x4096x128_2_1_01_0_n_n.lhsIdx i q 0).val = (i 0).val := by
  unfold DotDims.lhsIdx
  rw [dif_neg (show ¬(0 : Fin S64x4096x128.rank) ∈ dot_S64x4096x128_S128x128_S64x4096x128_2_1_01_0_n_n.lhsBatch by decide),
    dif_pos (show (0 : Fin S64x4096x128.rank) ∈ dot_S64x4096x128_S128x128_S64x4096x128_2_1_01_0_n_n.lhsNonContracting by decide)]
  rfl
/-- On its second free axis (the row), the result's second coordinate. -/
theorem lhs_dotW_1 (i : S64x4096x128.Idx) (q : dot_S64x4096x128_S128x128_S64x4096x128_2_1_01_0_n_n.contr.Idx) :
    (dot_S64x4096x128_S128x128_S64x4096x128_2_1_01_0_n_n.lhsIdx i q 1).val = (i 1).val := by
  unfold DotDims.lhsIdx
  rw [dif_neg (show ¬(1 : Fin S64x4096x128.rank) ∈ dot_S64x4096x128_S128x128_S64x4096x128_2_1_01_0_n_n.lhsBatch by decide),
    dif_pos (show (1 : Fin S64x4096x128.rank) ∈ dot_S64x4096x128_S128x128_S64x4096x128_2_1_01_0_n_n.lhsNonContracting by decide)]
  rfl
/-- On its contracted axis, the contraction index's one coordinate. -/
theorem lhs_dotW_2 (i : S64x4096x128.Idx) (q : dot_S64x4096x128_S128x128_S64x4096x128_2_1_01_0_n_n.contr.Idx) :
    (dot_S64x4096x128_S128x128_S64x4096x128_2_1_01_0_n_n.lhsIdx i q 2).val = (q ⟨0, by decide⟩).val :=
  dot_S64x4096x128_S128x128_S64x4096x128_2_1_01_0_n_n.lhsIdx_val_of_single rfl i q
/-- On the weight's free axis the operand index reads the result's third coordinate. -/
theorem rhs_dotW_0 (i : S64x4096x128.Idx) (q : dot_S64x4096x128_S128x128_S64x4096x128_2_1_01_0_n_n.contr.Idx) :
    (dot_S64x4096x128_S128x128_S64x4096x128_2_1_01_0_n_n.rhsIdx i q 0).val = (i 2).val := by
  unfold DotDims.rhsIdx
  rw [dif_neg (show ¬(0 : Fin S128x128.rank) ∈ dot_S64x4096x128_S128x128_S64x4096x128_2_1_01_0_n_n.rhsBatch by decide),
    dif_pos (show (0 : Fin S128x128.rank) ∈ dot_S64x4096x128_S128x128_S64x4096x128_2_1_01_0_n_n.rhsNonContracting by decide)]
  rfl
/-- On the weight's contracted axis, the contraction index's one coordinate. -/
theorem rhs_dotW_1 (i : S64x4096x128.Idx) (q : dot_S64x4096x128_S128x128_S64x4096x128_2_1_01_0_n_n.contr.Idx) :
    (dot_S64x4096x128_S128x128_S64x4096x128_2_1_01_0_n_n.rhsIdx i q 1).val = (q ⟨0, by decide⟩).val :=
  dot_S64x4096x128_S128x128_S64x4096x128_2_1_01_0_n_n.rhsIdx_val_of_single rfl i q

/-- Entry (b, n, h) of a projection is the sum over i of x[b, n, i] · w[h, i]. -/
theorem dotW_apply (X : FVec Ideal S64x4096x128 .f32) (w : FVec Ideal S128x128 .f32) (b : Fin 64) (n : Fin 4096) (h : Fin 128) :
    dotW (F := Ideal) X w (ix3 b n h) = ∑ i : Fin 128, X (ix3 b n i) * w (ix2 h i) := by
  unfold dotW
  simp only [Host.dotGeneral]
  rw [Ideal.dotGeneral_apply,
    ← Equiv.sum_comp (contrEquiv1 dot_S64x4096x128_S128x128_S64x4096x128_2_1_01_0_n_n 128 rfl rfl).symm]
  refine Finset.sum_congr rfl fun k _ => ?_
  have hk := contrEquiv1_symm_val dot_S64x4096x128_S128x128_S64x4096x128_2_1_01_0_n_n 128 rfl rfl k
  have el : dot_S64x4096x128_S128x128_S64x4096x128_2_1_01_0_n_n.lhsIdx (ix3 b n h)
      ((contrEquiv1 dot_S64x4096x128_S128x128_S64x4096x128_2_1_01_0_n_n 128 rfl rfl).symm k) = ix3 b n k :=
    funext fun a => Fin.ext (by
      match a with
      | ⟨0, _⟩ => exact lhs_dotW_0 _ _
      | ⟨1, _⟩ => exact lhs_dotW_1 _ _
      | ⟨2, _⟩ => exact (lhs_dotW_2 _ _).trans hk)
  have er : dot_S64x4096x128_S128x128_S64x4096x128_2_1_01_0_n_n.rhsIdx (ix3 b n h)
      ((contrEquiv1 dot_S64x4096x128_S128x128_S64x4096x128_2_1_01_0_n_n 128 rfl rfl).symm k) = ix2 h k :=
    funext fun a => Fin.ext (by
      match a with
      | ⟨0, _⟩ => exact rhs_dotW_0 _ _
      | ⟨1, _⟩ => exact (rhs_dotW_1 _ _).trans hk)
  rw [el, er]

/-! ### Broadcasts and the column sum read at an entry -/

/-- A scalar broadcast to [64, 1, 128] reads the scalar. -/
theorem bcast_S_S64x1x128_apply {α : Type} (x : S_.Idx → α) (j : S64x1x128.Idx) :
    broadcastInDim S64x1x128 ![] bcast_S_S64x1x128 x j = x ix0 :=
  broadcastInDim_apply ![] bcast_S_S64x1x128 x j ix0 (fun a => a.elim0)

/-- [64, 128] broadcast to [64, 1, 128] reads (b, h). -/
theorem bcast_S64x128_S64x1x128_apply {α : Type} (x : S64x128.Idx → α) (b : Fin 64) (u : Fin 1) (h : Fin 128) :
    broadcastInDim S64x1x128 ![0, 2] bcast_S64x128_S64x1x128_0_2 x (ix3 b u h) = x (ix2 b h) := by
  unfold broadcastInDim
  exact congrArg x (funext fun a => Fin.ext (by match a with | ⟨0, _⟩ => rfl | ⟨1, _⟩ => rfl))

/-- [64, 1, 128] broadcast down the 4096 rows reads (b, 0, h). -/
theorem bcast_S64x1x128_S64x4096x128_apply {α : Type} (x : S64x1x128.Idx → α) (b : Fin 64) (n : Fin 4096) (h : Fin 128) :
    broadcastInDim S64x4096x128 ![0, 1, 2] bcast_S64x1x128_S64x4096x128_0_1_2 x (ix3 b n h) = x (ix3 b (0 : Fin 1) h) := by
  unfold broadcastInDim
  exact congrArg x (funext fun a => Fin.ext (by match a with | ⟨0, _⟩ => rfl | ⟨1, _⟩ => rfl | ⟨2, _⟩ => rfl))

/-- The sum over the 4096 rows of a slice, from the zero initial value. -/
theorem colSum_apply (z : FVec Ideal S64x4096x128 .f32) (b : Fin 64) (h : Fin 128) :
    Host.reduceAdd (F := Ideal) z (constant (F := Ideal) S_ .f32 0x00000000#32) reducesTo_S64x4096x128_S64x128_d1 h_S_ (ix2 b h)
      = ∑ m : Fin 4096, z (ix3 b m h) := by
  unfold Host.reduceAdd
  simp only [Ideal.hostReduceAdd_def]
  rw [Ideal.hostReduceAdd_single reducesTo_S64x4096x128_S64x128_d1 (by decide)]
  show Ideal.ofBits .f32 0x00000000#32 + _ = _
  rw [Ideal.ofBits_zero_f32, zero_add]
  refine Finset.sum_congr rfl fun k _ => ?_
  exact congrArg z (funext fun a => Fin.ext (by match a with | ⟨0, _⟩ => rfl | ⟨1, _⟩ => rfl | ⟨2, _⟩ => rfl))

/-! ### `q ∘ s + v` read at an entry -/

/-- `q ∘ s + v` at (b, n, h): the column average is over the 4096 rows of slice b. -/
theorem mixed_apply (X : FVec Ideal S64x4096x128 .f32) (wq wk wv : FVec Ideal S128x128 .f32) (b : Fin 64) (n : Fin 4096) (h : Fin 128) :
    mixed (F := Ideal) X wq wk wv (ix3 b n h)
      = dotW (F := Ideal) X wq (ix3 b n h)
          * Ideal.div (∑ m : Fin 4096, dotW (F := Ideal) X wk (ix3 b m h) * dotW (F := Ideal) X wv (ix3 b m h)) Cert.Spec.c4096
        + dotW (F := Ideal) X wv (ix3 b n h) := by
  unfold mixed
  rw [addf_apply, mulf_apply, bcast_S64x1x128_S64x4096x128_apply]
  unfold Host.divf
  simp only [Ideal.hostDivf_def]
  rw [bcast_S64x128_S64x1x128_apply, bcast_S_S64x1x128_apply, colSum_apply]
  simp only [mulf_apply]
  rfl

/-! ### The two reshapes: (b, n, h) sits at (b, n·128 + h) -/

/-- Row b of the flattened array, read as a matrix, is slice b. -/
theorem rowMat_flatten (y : FVec Ideal S64x4096x128 .f32) (b : Fin 64) :
    rowMat (shapeCast S64x524288 y shapeCasts_S64x4096x128_S64x524288) b = fun n h => y (ix3 b n h) := by
  funext n h
  unfold rowMat
  refine shapeCast_apply y _ _ (ix3 b n h) ?_
  rw [Shape.rowMajor_val_three, Shape.rowMajor_val_two]
  show (b.val * 4096 + n.val) * 128 + h.val = b.val * 524288 + (n.val * 128 + h.val)
  omega

/-- Unflattening reads (b, n·128 + o). -/
theorem unflatten_apply {α : Type} (u : S64x524288.Idx → α) (b : Fin 64) (n : Fin 4096) (o : Fin 128) :
    shapeCast S64x4096x128 u shapeCasts_S64x524288_S64x4096x128 (ix3 b n o)
      = u (ix2 b (⟨n.val * 128 + o.val, by have := n.isLt; have := o.isLt; omega⟩ : Fin 524288)) := by
  refine shapeCast_apply u _ _ _ ?_
  rw [Shape.rowMajor_val_two, Shape.rowMajor_val_three]
  show b.val * 524288 + (n.val * 128 + o.val) = (b.val * 4096 + n.val) * 128 + o.val
  omega

/-- Flatten, normalise, unflatten: each slice normalised over all its entries. -/
theorem lnSlice_apply (y : FVec Ideal S64x4096x128 .f32) (b : Fin 64) (n : Fin 4096) (o : Fin 128) :
    shapeCast S64x4096x128 (lnFlat (F := Ideal) (shapeCast S64x524288 y shapeCasts_S64x4096x128_S64x524288))
        shapeCasts_S64x524288_S64x4096x128 (ix3 b n o)
      = Cert.Spec.normF (fun n h => y (ix3 b n h)) n o := by
  rw [unflatten_apply, lnFlat_apply, rowMat_flatten]

/-! ### The stages on one slice -/

/-- A projection on slice b is the matrix product of the slice with the weight's transpose. -/
theorem dotW_slice (Y : FVec Ideal S64x4096x128 .f32) (w : FVec Ideal S128x128 .f32) (b : Fin 64) :
    (fun n h => dotW (F := Ideal) Y w (ix3 b n h)) = Cert.Spec.proj (fun n i => Y (ix3 b n i)) (wMat w) := by
  funext n h
  rw [dotW_apply]
  rfl

/-- `q ∘ s + v` on slice b. -/
theorem mixed_slice (X : FVec Ideal S64x4096x128 .f32) (wq wk wv : FVec Ideal S128x128 .f32) (b : Fin 64) :
    (fun n h => mixed (F := Ideal) X wq wk wv (ix3 b n h))
      = Cert.Spec.mix (Cert.Spec.proj (sliceMat X b) (wMat wq)) (Cert.Spec.proj (sliceMat X b) (wMat wk))
          (Cert.Spec.proj (sliceMat X b) (wMat wv)) := by
  funext n h
  rw [mixed_apply]
  simp only [dotW_apply]
  rfl

end RefRead

open RefRead

theorem refOut_apply (X : FVec Ideal S64x4096x128 .f32) (wq wk wv wl : FVec Ideal S128x128 .f32)
    (b : Fin 64) (n : Fin 4096) (o : Fin 128) :
    refOut (F := Ideal) X wq wk wv wl (ix3 b n o)
      = Cert.Spec.outF (sliceMat X b) (wMat wq) (wMat wk) (wMat wv) (wMat wl) n o := by
  unfold refOut Host.tanh
  simp only [Ideal.hostUnary_tanh_def]
  rw [lnSlice_apply, dotW_slice]
  simp only [lnSlice_apply, mixed_slice]
  rfl

end Cert.ReferenceIdeal.Host

end
-- ==== Proof.RefValue.lean ====
/-
  The reference's result buffer, entry by entry: the run lands on `refOut`, and `refOut` at (b, n, o) is batch slice
  b's result at (n, o).
-/
import proofs.«100207_j82643760710412_1_alg».proof.Proof.RefStage
import proofs.«100207_j82643760710412_1_alg».proof.Proof.RefRead

noncomputable section

namespace Cert.ReferenceIdeal.Host

open Cert.ReferenceIdeal Cert.ReferenceIdeal.Gen Idealize.ShloMosaic Idealize.ShloMosaic.TcCoe Idealize.SL.Sem Idealize.ShloMosaic.StableHlo
open Idealize.ShloMosaic.ValueIdx

/-- Entry (b, n, o) of the result buffer after the operations. -/
theorem result_apply (V : Valuation τ sig (Elt Ideal)) (b : Fin 64) (n : Fin 4096) (o : Fin 128) :
    after ops V (main_v40 : DevRef τ sig) (ix3 b n o)
      = Cert.Spec.outF (sliceMat (V (main_arg0 : DevRef τ sig)) b) (wMat (V (main_arg1 : DevRef τ sig)))
          (wMat (V (main_arg2 : DevRef τ sig))) (wMat (V (main_arg3 : DevRef τ sig))) (wMat (V (main_arg4 : DevRef τ sig))) n o := by
  rw [out_eq]
  exact refOut_apply _ _ _ _ _ b n o

end Cert.ReferenceIdeal.Host

end
-- ==== Proof.MathSum.lean ====
/-
  The total of a matrix's entries does not depend on the order of summation: summed over the 524288 entries of the
  flattened matrix, or row by row and then over the row sums, it is the same extended real (addition on the extended
  reals commutes and associates; j ↦ (j / 128, j % 128) is a bijection from the flat indices to the pairs).
-/
import proofs.«100207_j82643760710412_1_alg».proof.Proof.Spec

noncomputable section

open scoped BigOperators

namespace Cert.Spec

/-- The pairs (n, h) of a row and a lane correspond one to one to the flat indices: (n, h) goes to h + 128 · n, which
    is below 4096 · 128 = 524288. -/
def flatEquiv : Fin 4096 × Fin 128 ≃ Fin 524288 :=
  finProdFinEquiv.trans (finCongr (by norm_num))

/-- The flat index of the pair (n, h) is the number h + 128 · n. -/
theorem flatEquiv_val (p : Fin 4096 × Fin 128) : (flatEquiv p).val = p.2.val + 128 * p.1.val := by
  show (finCongr (by norm_num : 4096 * 128 = 524288) (finProdFinEquiv p)).val = p.2.val + 128 * p.1.val
  rw [finCongr_apply_coe, finProdFinEquiv_apply_val]

/-- Reading the flattened matrix at the flat index of (n, h) gives back entry (n, h): since h < 128, the quotient of
    h + 128 · n by 128 is n and the remainder is h. -/
theorem flat_flatEquiv (z : Mat 4096 128) (p : Fin 4096 × Fin 128) : flat z (flatEquiv p) = z p.1 p.2 := by
  have hv := flatEquiv_val p
  have hlane := p.2.isLt
  unfold flat
  congr 1
  · apply Fin.ext
    show (flatEquiv p).val / 128 = p.1.val
    omega
  · apply Fin.ext
    show (flatEquiv p).val % 128 = p.2.val
    omega

theorem totalF_eq_total (z : Mat 4096 128) : totalF z = total z := by
  calc totalF z
      = ∑ j : Fin 524288, flat z j := rfl
    -- re-index the flat sum along the bijection: the summands agree entry by entry
    _ = ∑ p : Fin 4096 × Fin 128, z p.1 p.2 :=
        (Fintype.sum_equiv flatEquiv (fun p => z p.1 p.2) (flat z) (fun p => (flat_flatEquiv z p).symm)).symm
    -- a sum over pairs is the iterated sum, rows outside and lanes inside
    _ = ∑ n : Fin 4096, ∑ h : Fin 128, z n h :=
        Fintype.sum_prod_type (fun p : Fin 4096 × Fin 128 => z p.1 p.2)
    _ = total z := rfl

end Cert.Spec

end
-- ==== Proof.Math.lean ====
/-
  Where every entry of the slice and of the four weight matrices is a real number, the slice's result is the same
  whether the sums are taken row by row with the variance as mean of squares minus squared mean (`Spec.out`) or over
  the flattened slice with the variance as the mean squared deviation (`Spec.outF`).

  The two totals agree on every matrix, so the two means do. On a matrix of real numbers both variances are the
  coercion of one real number: with N = 524288 entries, S their sum, Q the sum of their squares and m = S / N,
  ∑ (zᵢ − m)² = Q − 2 m S + N m², and S = N m, so (∑ (zᵢ − m)²) / N = Q / N − m². Hence the two normalisations agree on a
  real matrix. Realness is carried through the pipeline: sums, differences and products of reals are real, a quotient
  by a nonzero real constant is real, and the reciprocal square root of variance plus ε is real because the variance,
  a mean of squares of reals, is nonnegative and ε is positive.
-/
import proofs.«100207_j82643760710412_1_alg».proof.Proof.Spec
import proofs.«100207_j82643760710412_1_alg».proof.Proof.MathSum

noncomputable section

open scoped BigOperators

namespace Cert.Spec

open Idealize.ShloMosaic

/-- Every entry is a real number. -/
def IsReal {a b : Nat} (z : Mat a b) : Prop := ∀ n h, ∃ r : ℝ, z n h = (r : EReal)

/-! ### Coercion and finite sums -/

/-- A finite sum of coerced reals is the coercion of the real sum (the coercion is additive and sends 0 to 0). -/
theorem sum_coe {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The matrix of coercions of a real matrix. -/
def up {a b : Nat} (f : Fin a → Fin b → ℝ) : Mat a b := fun n h => (f n h : EReal)

@[simp] theorem up_apply {a b : Nat} (f : Fin a → Fin b → ℝ) (n : Fin a) (h : Fin b) : up f n h = (f n h : EReal) := rfl

/-- A real matrix is the coercion of a matrix of reals. -/
theorem IsReal.exists_up {a b : Nat} {z : Mat a b} (hz : IsReal z) : ∃ f : Fin a → Fin b → ℝ, z = up f := by
  choose f hf using hz
  exact ⟨f, funext fun n => funext fun h => hf n h⟩

theorem isReal_up {a b : Nat} (f : Fin a → Fin b → ℝ) : IsReal (up f) := fun n h => ⟨f n h, rfl⟩

/-! ### The statistics of a real matrix are real numbers -/

/-- The quotient of a real by the entry count is the real quotient. -/
theorem div_cCount_coe (r : ℝ) : Ideal.div (r : EReal) cCount = ((r / 524288 : ℝ) : EReal) := by
  rw [cCount_eq, Ideal.div_coe (by norm_num), ← EReal.coe_mul, mul_one_div]

/-- The quotient of a real by the row count is the real quotient. -/
theorem div_c4096_coe (r : ℝ) : Ideal.div (r : EReal) c4096 = ((r / 4096 : ℝ) : EReal) := by
  rw [c4096_eq, Ideal.div_coe (by norm_num), ← EReal.coe_mul, mul_one_div]

theorem total_up (f : Fin 4096 → Fin 128 → ℝ) : total (up f) = ((∑ n, ∑ h, f n h : ℝ) : EReal) := by
  simp only [total, up_apply, sum_coe]

/-- The real mean of a real matrix. -/
def rmean (f : Fin 4096 → Fin 128 → ℝ) : ℝ := (∑ n, ∑ h, f n h) / 524288

/-- The real variance of a real matrix, as the mean of squares minus the squared mean. -/
def rvar (f : Fin 4096 → Fin 128 → ℝ) : ℝ := (∑ n, ∑ h, f n h * f n h) / 524288 - rmean f * rmean f

theorem mean_up (f : Fin 4096 → Fin 128 → ℝ) : mean (up f) = (rmean f : EReal) := by
  rw [mean, total_up, div_cCount_coe, rmean]

theorem var_up (f : Fin 4096 → Fin 128 → ℝ) : var (up f) = (rvar f : EReal) := by
  have hsq : (fun n h => up f n h * up f n h) = up fun n h => f n h * f n h := by
    funext n h; simp only [up_apply, EReal.coe_mul]
  rw [var, hsq, total_up, div_cCount_coe, mean_up, ← EReal.coe_mul, ← EReal.coe_sub, rvar]

/-- Over the reals, the mean squared deviation is the mean of squares minus the squared mean: expand the square, and
    the sum of the 4096 · 128 = 524288 copies of m² is 524288 m² while the sum of the entries is 524288 m. -/
theorem rvar_eq (f : Fin 4096 → Fin 128 → ℝ) :
    (∑ n, ∑ h, (f n h - rmean f) * (f n h - rmean f)) / 524288 = rvar f := by
  have hS : (∑ n, ∑ h, f n h) = 524288 * rmean f := by rw [rmean]; ring
  have h1 : ∀ n h, (f n h - rmean f) * (f n h - rmean f) = f n h * f n h - 2 * rmean f * f n h + rmean f * rmean f := by
    intro n h; ring
  simp only [h1, Finset.sum_add_distrib, Finset.sum_sub_distrib, ← Finset.mul_sum, Finset.sum_const, Finset.card_univ,
    Fintype.card_fin, nsmul_eq_mul, Nat.cast_ofNat]
  rw [rvar, hS]; ring

/-- The variance of a real matrix is not negative: it is a mean of squares. -/
theorem rvar_nonneg (f : Fin 4096 → Fin 128 → ℝ) : 0 ≤ rvar f := by
  rw [← rvar_eq]
  exact div_nonneg (Finset.sum_nonneg fun n _ => Finset.sum_nonneg fun h _ => mul_self_nonneg _) (by norm_num)

/-! ### The two normalisations agree on a real matrix -/

/-- The two means agree on every matrix, the totals doing so. -/
theorem meanF_eq_mean (z : Mat 4096 128) : meanF z = mean z := by
  rw [meanF, mean, totalF_eq_total]

theorem varF_up (f : Fin 4096 → Fin 128 → ℝ) : varF (up f) = (rvar f : EReal) := by
  have hdev : (fun n h => (up f n h - meanF (up f)) * (up f n h - meanF (up f)))
      = up fun n h => (f n h - rmean f) * (f n h - rmean f) := by
    funext n h; simp only [up_apply, meanF_eq_mean, mean_up, EReal.coe_mul, EReal.coe_sub]
  rw [varF, hdev, totalF_eq_total, total_up, div_cCount_coe, rvar_eq]

/-- LEMMA A: on a real matrix the mean squared deviation is the mean of squares minus the squared mean. -/
theorem varF_eq_var {z : Mat 4096 128} (hz : IsReal z) : varF z = var z := by
  obtain ⟨f, rfl⟩ := hz.exists_up
  rw [varF_up, var_up]

theorem normF_eq_norm {z : Mat 4096 128} (hz : IsReal z) : normF z = norm z := by
  funext n h
  rw [normF, norm, meanF_eq_mean, varF_eq_var hz]

/-! ### Realness through the pipeline -/

/-- LEMMA B, the projection: each entry is a finite sum of products of reals. -/
theorem isReal_proj {x : Mat 4096 128} {w : Mat 128 128} (hx : IsReal x) (hw : IsReal w) : IsReal (proj x w) := by
  obtain ⟨f, rfl⟩ := hx.exists_up
  obtain ⟨g, rfl⟩ := hw.exists_up
  intro n h
  refine ⟨∑ i, f n i * g h i, ?_⟩
  simp only [proj, up_apply, ← EReal.coe_mul, sum_coe]

/-- LEMMA B, the mix: the column average is a real sum divided by the row count 4096. -/
theorem isReal_mix {q k v : Mat 4096 128} (hq : IsReal q) (hk : IsReal k) (hv : IsReal v) : IsReal (mix q k v) := by
  obtain ⟨a, rfl⟩ := hq.exists_up
  obtain ⟨b, rfl⟩ := hk.exists_up
  obtain ⟨c, rfl⟩ := hv.exists_up
  intro n h
  refine ⟨a n h * ((∑ n, b n h * c n h) / 4096) + c n h, ?_⟩
  simp only [mix, colMean, up_apply, ← EReal.coe_mul, sum_coe, div_c4096_coe, ← EReal.coe_add]

/-- LEMMA C: the normalised real matrix is real. Variance plus ε is a positive real, so its reciprocal square root is
    the real (√(v + e))⁻¹. -/
theorem isReal_norm {z : Mat 4096 128} (hz : IsReal z) : IsReal (norm z) := by
  obtain ⟨f, rfl⟩ := hz.exists_up
  obtain ⟨e, he, hε⟩ := eps_pos
  have hpos : 0 < rvar f + e := add_pos_of_nonneg_of_pos (rvar_nonneg f) he
  intro n h
  refine ⟨(f n h - rmean f) * (Real.sqrt (rvar f + e))⁻¹, ?_⟩
  rw [norm, mean_up, var_up, hε, ← EReal.coe_add, Ideal.rsqrt_coe, if_neg (not_lt.2 hpos.le), if_neg hpos.ne',
    up_apply, ← EReal.coe_sub, ← EReal.coe_mul]

/-! ### The two results agree -/

theorem outF_eq_out (x : Mat 4096 128) (wq wk wv wl : Mat 128 128)
    (hx : IsReal x) (hq : IsReal wq) (hk : IsReal wk) (hv : IsReal wv) (hl : IsReal wl) :
    outF x wq wk wv wl = out x wq wk wv wl := by
  have hw : IsReal (mix (proj x wq) (proj x wk) (proj x wv)) :=
    isReal_mix (isReal_proj hx hq) (isReal_proj hx hk) (isReal_proj hx hv)
  have hy : IsReal (proj (norm (mix (proj x wq) (proj x wk) (proj x wv))) wl) := isReal_proj (isReal_norm hw) hl
  funext n o
  rw [outF, out, normF_eq_norm hw, normF_eq_norm hy]

end Cert.Spec

end
-- ==== Proof.Finite.lean ====
/-
  The precondition read back: where it holds, every entry of every argument array is a real number (its absolute
  value is below +∞, and the extended reals other than ±∞ are the reals).
-/
import proofs.«100207_j82643760710412_1_alg».proof.Pre_finite_inputs
import proofs.«100207_j82643760710412_1_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Read

open Cert.Pre_finite_inputs Cert.Pre_finite_inputs.Gen Idealize.ShloMosaic Idealize.ShloMosaic.ValueIdx

/-- The f32 word with every exponent bit set and no fraction bit denotes +∞. -/
theorem inf_word : Ideal.ofBits .f32 0x7F800000#32 = (⊤ : EReal) := by
  simp [Ideal.ofBits, Ideal.ieee]

/-- An extended real whose absolute value max x (-x) compares below +∞ is a real number: at ⊥ and at ⊤ the
    absolute value is ⊤, which is not below itself. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The scalar shape has one index. -/
instance : Subsingleton S_.Idx := ⟨fun a b => funext fun d => d.elim0⟩

/-- The all-quantified test |a| < +∞ for an array of any shape: if the reduce by "and" over all axes of the
    entrywise comparison of |a| with the broadcast +∞ is 1, every entry of a is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf a) (broadcastInDim s ![] hb (constant S_ .f32 0x7F800000#32))) init hr hu j = 1#1)
    (i : s.Idx) : ∃ r : ℝ, a i = (r : EReal) :=
  real_of_abs_lt (a i) (Host.reduce_andi_all _ init hr hu j e i)

theorem real_of_pre (a0 : FVec Ideal S64x4096x128 .f32) (a1 a2 a3 a4 : FVec Ideal S128x128 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ValueIdx.ix0
  dsimp only [fn, fn_part1] at e
  -- the result is the conjunction of the five reduces, associated to the left
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all a0 _ _ _ _ _ e0, real_of_all a1 _ _ _ _ _ e1, real_of_all a2 _ _ _ _ _ e2,
    real_of_all a3 _ _ _ _ _ e3, real_of_all a4 _ _ _ _ _ e4⟩

end Cert.Pre_finite_inputs.Read

end
-- ==== Proof.lean ====
/-
  The certificate of the attention-block kernel against its jnp reference, over the extended reals.

  Both programs take an input [64, 4096, 128] and four [128, 128] weight matrices and return [64, 4096, 128]. Each batch
  slice x is handled alone: q = x wqᵀ, k = x wkᵀ, v = x wvᵀ; s the average over the 4096 rows of k ∘ v; w = q ∘ s + v;
  w normalised over all its 524288 entries; projected by wlᵀ; normalised again; tanh. The kernel does one slice per
  grid point, sums row by row and takes the variance as mean of squares minus squared mean; the reference works on the
  whole array, flattens each slice before it sums, and takes the variance as the mean squared deviation. On extended
  reals the two orders of summation always agree; the two variances agree because the precondition makes every input
  entry a real number, and then every intermediate value is one too (ε is positive, so the reciprocal square roots are
  taken of positive reals). All three float literals (4096, 524288, ε) are the same words in both programs, and every
  change of float format in the kernel is the identity on extended reals.

  The kernels' frames are the generated ones. The reference's frame and value come from its run as a straight line of
  host operations. The idealisation rewrote nothing, so `preserves` is trivial.
-/
import proofs.«100207_j82643760710412_1_alg».proof.Defs
import proofs.«100207_j82643760710412_1_alg».proof.Proof.Gen.Kernel
import proofs.«100207_j82643760710412_1_alg».proof.Proof.Gen.Kernel.Skeleton
import proofs.«100207_j82643760710412_1_alg».proof.Proof.Gen.Kernel.Launch
import proofs.«100207_j82643760710412_1_alg».proof.Proof.Gen.Kernel.Points
import proofs.«100207_j82643760710412_1_alg».proof.Proof.Gen.Kernel.Frame
import proofs.«100207_j82643760710412_1_alg».proof.Proof.Gen.KernelIdeal
import proofs.«100207_j82643760710412_1_alg».proof.Proof.Gen.KernelIdeal.Skeleton
import proofs.«100207_j82643760710412_1_alg».proof.Proof.Gen.KernelIdeal.Launch
import proofs.«100207_j82643760710412_1_alg».proof.Proof.Gen.KernelIdeal.Points
import proofs.«100207_j82643760710412_1_alg».proof.Proof.Gen.KernelIdeal.Frame
import proofs.«100207_j82643760710412_1_alg».proof.Proof.Gen.KernelIdeal.Value
import proofs.«100207_j82643760710412_1_alg».proof.Proof.Gen.ReferenceIdeal
import proofs.«100207_j82643760710412_1_alg».proof.Proof.Gen.Pre_finite_inputs
import proofs.«100207_j82643760710412_1_alg».proof.Proof.KernelValue
import proofs.«100207_j82643760710412_1_alg».proof.Proof.RefRun
import proofs.«100207_j82643760710412_1_alg».proof.Proof.RefValue
import proofs.«100207_j82643760710412_1_alg».proof.Proof.Math
import proofs.«100207_j82643760710412_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.StableHlo Idealize.ShloMosaic.ValueIdx

/-- The reference's result buffer is the kernel's whole-array function of the same argument arrays, where those
    arrays hold real numbers: entry by entry both are one batch slice's result, the reference's with its sums over the
    flattened slice and the kernel's row by row. -/
theorem value_bridge (V : Valuation Cert.ReferenceIdeal.τ Cert.ReferenceIdeal.sig (Elt Ideal))
    (a0 : Cert.KernelIdeal.S64x4096x128.Idx → EReal) (a1 a2 a3 a4 : Cert.KernelIdeal.S128x128.Idx → EReal)
    (h0 : V (Cert.ReferenceIdeal.main_arg0 : DevRef Cert.ReferenceIdeal.τ Cert.ReferenceIdeal.sig) = a0)
    (h1 : V (Cert.ReferenceIdeal.main_arg1 : DevRef Cert.ReferenceIdeal.τ Cert.ReferenceIdeal.sig) = a1)
    (h2 : V (Cert.ReferenceIdeal.main_arg2 : DevRef Cert.ReferenceIdeal.τ Cert.ReferenceIdeal.sig) = a2)
    (h3 : V (Cert.ReferenceIdeal.main_arg3 : DevRef Cert.ReferenceIdeal.τ Cert.ReferenceIdeal.sig) = a3)
    (h4 : V (Cert.ReferenceIdeal.main_arg4 : DevRef Cert.ReferenceIdeal.τ Cert.ReferenceIdeal.sig) = a4)
    (r0 : ∀ i, ∃ r : ℝ, a0 i = (r : EReal)) (r1 : ∀ i, ∃ r : ℝ, a1 i = (r : EReal)) (r2 : ∀ i, ∃ r : ℝ, a2 i = (r : EReal))
    (r3 : ∀ i, ∃ r : ℝ, a3 i = (r : EReal)) (r4 : ∀ i, ∃ r : ℝ, a4 i = (r : EReal)) :
    after Cert.ReferenceIdeal.Host.ops V (Cert.ReferenceIdeal.main_v40 : DevRef Cert.ReferenceIdeal.τ Cert.ReferenceIdeal.sig)
      = Cert.KernelIdeal.Whole.G a0 a1 a2 a3 a4 := by
  funext i
  obtain ⟨b, n, o, rfl⟩ : ∃ (b : Fin 64) (n : Fin 4096) (o : Fin 128), i = ix3 b n o := ⟨i 0, i 1, i 2, eq_ix3 i⟩
  rw [Cert.ReferenceIdeal.Host.result_apply V b n o, h0, h1, h2, h3, h4]
  exact congrFun (congrFun (Cert.Spec.outF_eq_out _ _ _ _ _ (fun n i => r0 _) (fun h i => r1 _) (fun h i => r2 _)
    (fun h i => r3 _) (fun h i => r4 _)) n) o

theorem frame_k : Cert.frame_Kernel := fun m ρ _ => Cert.Kernel.Gen.frame m ρ

theorem frame_ki : Cert.frame_KernelIdeal := fun m ρ _ => Cert.KernelIdeal.Gen.frame m ρ

/-- The reference runs and leaves its arguments as they were: no operation of its line writes an argument buffer. -/
theorem frame_ri : Cert.frame_ReferenceIdeal := fun m ρ _ =>
  (θ_run Cert.ReferenceIdeal.defs _ _).mono
    (fun _ h c => ⟨(h c _).trans (Cert.ReferenceIdeal.Host.arg0_eq _), (h c _).trans (Cert.ReferenceIdeal.Host.arg1_eq _),
      (h c _).trans (Cert.ReferenceIdeal.Host.arg2_eq _), (h c _).trans (Cert.ReferenceIdeal.Host.arg3_eq _),
      (h c _).trans (Cert.ReferenceIdeal.Host.arg4_eq _)⟩)
    (Cert.ReferenceIdeal.Host.run_main (F := Ideal) m ρ)

theorem preserves : Cert.preserves_Kernel_KernelIdeal := trivial

/-- Both runs end with the result array at the kernel's whole-array function of the arguments: the kernel's by its
    blocks, the reference's by `value_bridge`, the precondition giving the real entries. -/
theorem algebraic : Cert.algebraic_KernelIdeal_ReferenceIdeal := by
  intro m ρ m' ρ' hpre hagree
  refine ⟨fun c => Cert.KernelIdeal.Whole.GA m c, Cert.KernelIdeal.Whole.run m ρ, ?_⟩
  refine (θ_run Cert.ReferenceIdeal.defs _ _).mono (fun _ h c => ?_) (Cert.ReferenceIdeal.Host.run_main (F := Ideal) m' ρ')
  obtain ⟨g0, g1, g2, g3, g4⟩ := hagree c
  obtain ⟨r0, r1, r2, r3, r4⟩ := Cert.Pre_finite_inputs.Read.real_of_pre _ _ _ _ _ (hpre c)
  refine ⟨(h c _).trans ?_, (h c _).trans (Cert.ReferenceIdeal.Host.arg0_eq _), (h c _).trans (Cert.ReferenceIdeal.Host.arg1_eq _),
    (h c _).trans (Cert.ReferenceIdeal.Host.arg2_eq _), (h c _).trans (Cert.ReferenceIdeal.Host.arg3_eq _),
    (h c _).trans (Cert.ReferenceIdeal.Host.arg4_eq _)⟩
  exact value_bridge _ _ _ _ _ _ g0 g1 g2 g3 g4 r0 r1 r2 r3 r4

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
